-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg11 : FVec F S1600000 .f32) (main_v33 : IVec S_ 1) : IVec S_ 1 :=
  let main_v34 : FVec F S1600000 .f32 := Host.absf main_arg11
  let main_cst_12 : FVec F S_ .f32 := constant S_ .f32 0x7F800000#32
  let main_v35 : FVec F S1600000 .f32 := broadcastInDim S1600000 ![] bcast_S_S1600000 main_cst_12
  let main_v36 : IVec S1600000 1 := cmpf .olt main_v34 main_v35
  let main_c_13 : IVec S_ 1 := constantI S_ 1 1#1
  let main_v37 : IVec S_ 1 := (fun x v => Host.reduce IntOp.andi x v reducesTo_S1600000_S_d0 h_S_) main_v36 main_c_13
  let main_v38 : IVec S_ 1 := andi main_v33 main_v37
  main_v38

def fn_part1 {F : FTy → Type} [FloatOps F] (main_arg4 : FVec F S64x2 .f32) (main_arg5 : FVec F S2 .f32) (main_arg8 : FVec F S1600000 .f32) (main_arg11 : FVec F S1600000 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x2 .f32 := Host.absf main_arg4
  let main_cst_6 : FVec F S_ .f32 := constant S_ .f32 0x7F800000#32
  let main_v20 : FVec F S64x2 .f32 := broadcastInDim S64x2 ![] bcast_S_S64x2 main_cst_6
  let main_v21 : IVec S64x2 1 := cmpf .olt main_v19 main_v20
  let main_c_7 : IVec S_ 1 := constantI S_ 1 1#1
  let main_v22 : IVec S_ 1 := (fun x v => Host.reduce IntOp.andi x v reducesTo_S64x2_S_d0_1 h_S_) main_v21 main_c_7
  let main_v23 : IVec S_ 1 := andi main_v18 main_v22
  let main_v24 : FVec F S2 .f32 := Host.absf main_arg5
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_v29 : FVec F S1600000 .f32 := Host.absf main_arg8
  let main_cst_10 : FVec F S_ .f32 := constant S_ .f32 0x7F800000#32
  let main_v30 : FVec F S1600000 .f32 := broadcastInDim S1600000 ![] bcast_S_S1600000 main_cst_10
  let main_v31 : IVec S1600000 1 := cmpf .olt main_v29 main_v30
  let main_c_11 : IVec S_ 1 := constantI S_ 1 1#1
  let main_v32 : IVec S_ 1 := (fun x v => Host.reduce IntOp.andi x v reducesTo_S1600000_S_d0 h_S_) main_v31 main_c_11
  let main_v33 : IVec S_ 1 := andi main_v28 main_v32
  fn_part2 (F := F) main_arg11 main_v33

def fn {F : FTy → Type} [FloatOps F] (main_arg0 : FVec F S100000x128 .f32) (main_arg1 : FVec F S128x64 .f32) (main_arg2 : FVec F S64 .f32) (main_arg3 : FVec F S64 .f32) (main_arg4 : FVec F S64x2 .f32) (main_arg5 : FVec F S2 .f32) (main_arg6 : IVec S1600000 32) (main_arg7 : IVec S1600000 32) (main_arg8 : FVec F S1600000 .f32) (main_arg9 : IVec S1600000 32) (main_arg10 : IVec S1600000 32) (main_arg11 : FVec F S1600000 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg8 main_arg11 main_v13 main_v16
-- ==== Kernel.lean ====
abbrev S100000x128 : Shape := ⟨2, ![100000, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x64 : Shape := ⟨2, ![1, 64]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1600000x64 : Shape := ⟨2, ![1600000, 64]⟩
abbrev S1x2 : Shape := ⟨2, ![1, 2]⟩
abbrev S100000x2 : Shape := ⟨2, ![100000, 2]⟩
abbrev S5000x2 : Shape := ⟨2, ![5000, 2]⟩

abbrev nBuf : Space → Nat
  | .hbm => 90
  | .vmem => 25
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64, .f32⟩
  | .hbm, ⟨4, _⟩ => ⟨S64x2, .f32⟩
  | .hbm, ⟨5, _⟩ => ⟨S2, .f32⟩
  | .hbm, ⟨6, _⟩ => ⟨S1600000, .i32⟩
  | .hbm, ⟨7, _⟩ => ⟨S1600000, .i32⟩
  | .hbm, ⟨8, _⟩ => ⟨S1600000, .f32⟩
  | .hbm, ⟨9, _⟩ => ⟨S1600000, .i32⟩
  | .hbm, ⟨10, _⟩ => ⟨S1600000, .i32⟩
  | .hbm, ⟨11, _⟩ => ⟨S1600000, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x1, .f32⟩
  | .hbm, ⟨32, _⟩ => ⟨S_, .f32⟩
  | .hbm, ⟨33, _⟩ => ⟨S1600000, .f32⟩
  | .hbm, ⟨34, _⟩ => ⟨S_, .f32⟩
  | .hbm, ⟨35, _⟩ => ⟨S100000, .f32⟩
  | .hbm, ⟨36, _⟩ => ⟨S1600000x1, .i32⟩
  | .hbm, ⟨37, _⟩ => ⟨S100000, .f32⟩
  | .hbm, ⟨38, _⟩ => ⟨S_, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S_, .f32⟩
  | .hbm, ⟨43, _⟩ => ⟨S100000, .f32⟩
  | .hbm, ⟨44, _⟩ => ⟨S1600000x1, .i32⟩
  | .hbm, ⟨45, _⟩ => ⟨S100000, .f32⟩
  | .hbm, ⟨46, _⟩ => ⟨S_, .f32⟩
  | .hbm, ⟨47, _⟩ => ⟨S_, .f32⟩
  | .hbm, ⟨48, _⟩ => ⟨S100000, .f32⟩
  | .hbm, ⟨49, _⟩ => ⟨S100000, .f32⟩
  | .hbm, ⟨50, _⟩ => ⟨S100000x1, .f32⟩
  | .hbm, ⟨51, _⟩ => ⟨S100000x1, .f32⟩
  | .hbm, ⟨52, _⟩ => ⟨S1x64, .f32⟩
  | .hbm, ⟨53, _⟩ => ⟨S100000x64, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x64, .f32⟩
  | .hbm, ⟨63, _⟩ => ⟨S1600000x1, .f32⟩
  | .hbm, ⟨64, _⟩ => ⟨S1600000x64, .f32⟩
  | .hbm, ⟨65, _⟩ => ⟨S1600000x64, .f32⟩
  | .hbm, ⟨66, _⟩ => ⟨S_, .f32⟩
  | .hbm, ⟨67, _⟩ => ⟨S100000x64, .f32⟩
  | .hbm, ⟨68, _⟩ => ⟨S1600000x1, .i32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x64, .f32⟩
  | .hbm, ⟨81, _⟩ => ⟨S1600000x1, .f32⟩
  | .hbm, ⟨82, _⟩ => ⟨S1600000x64, .f32⟩
  | .hbm, ⟨83, _⟩ => ⟨S1600000x64, .f32⟩
  | .hbm, ⟨84, _⟩ => ⟨S_, .f32⟩
  | .hbm, ⟨85, _⟩ => ⟨S100000x64, .f32⟩
  | .hbm, ⟨86, _⟩ => ⟨S1600000x1, .i32⟩
  | .hbm, ⟨87, _⟩ => ⟨S100000x64, .f32⟩
  | .hbm, ⟨88, _⟩ => ⟨S1x2, .f32⟩
  | .hbm, ⟨89, _⟩ => ⟨S100000x2, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x1, .f32⟩
  | .local _ .vmem, ⟨5, _⟩ => ⟨S5000x1, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x1, .f32⟩
  | .local _ .vmem, ⟨11, _⟩ => ⟨S5000x1, .f32⟩
  | .local _ .vmem, ⟨12, _⟩ => ⟨S1x64, .f32⟩
  | .local _ .vmem, ⟨13, _⟩ => ⟨S5000x1, .f32⟩
  | .local _ .vmem, ⟨14, _⟩ => ⟨S5000x1, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x1, .f32⟩
  | .local _ .vmem, ⟨20, _⟩ => ⟨S5000x1, .f32⟩
  | .local _ .vmem, ⟨21, _⟩ => ⟨S64x2, .f32⟩
  | .local _ .vmem, ⟨22, _⟩ => ⟨S1x2, .f32⟩
  | .local _ .vmem, ⟨23, _⟩ => ⟨S5000x2, .f32⟩
  | .local _ .vmem, ⟨24, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v4 : Ref sig .tc := ⟨.hbm, 21, rfl⟩
abbrev main_cst_2 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_4 : Ref sig .tc := ⟨.hbm, 32, rfl⟩
abbrev main_v11 : Ref sig .tc := ⟨.hbm, 33, rfl⟩
abbrev main_cst_5 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_6 : Ref sig .tc := ⟨.hbm, 38, rfl⟩
abbrev main_call2_v0 : Ref sig .tc := ⟨.hbm, 39, rfl⟩
abbrev main_call2_v1 : Ref sig .tc := ⟨.hbm, 40, rfl⟩
abbrev main_v15 : Ref sig .tc := ⟨.hbm, 41, rfl⟩
abbrev main_cst_7 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_8 : Ref sig .tc := ⟨.hbm, 46, rfl⟩
abbrev main_call3_v0 : Ref sig .tc := ⟨.hbm, 47, rfl⟩
abbrev main_call3_v1 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_c : Ref sig .tc := ⟨.hbm, 54, rfl⟩
abbrev main_v24 : Ref sig .tc := ⟨.hbm, 55, rfl⟩
abbrev main_v25 : Ref sig .tc := ⟨.hbm, 56, rfl⟩
abbrev main_c_9 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_10 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_c_11 : Ref sig .tc := ⟨.hbm, 72, rfl⟩
abbrev main_v39 : Ref sig .tc := ⟨.hbm, 73, rfl⟩
abbrev main_v40 : Ref sig .tc := ⟨.hbm, 74, rfl⟩
abbrev main_c_12 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_13 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem4_1 : DmaSem sig := 24

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x2 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S5000x64_S5000x64 : S5000x64.ShapeCasts S5000x64
  shapeCasts_S2_S1x2 : S2.ShapeCasts S1x2
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S100000x1.size a
  hwx0_3 : ∀ i : grid0.Coords, EltTy.bits .f32 = 32 ∨ (Rect.block (s := S100000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x2.size a ≤ S64x2.size a
  hwx2_2 : ∀ i : grid2.Coords, EltTy.bits .f32 = 32 ∨ (Rect.block (s := S64x2) S64x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2.size a ≤ S1x2.size a
  hwx2_3 : ∀ i : grid2.Coords, EltTy.bits .f32 = 32 ∨ (Rect.block (s := S1x2) S1x2.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x2.size a ≤ S100000x2.size a
  hwx2_4 : ∀ i : grid2.Coords, EltTy.bits .f32 = 32 ∨ (Rect.block (s := S100000x2) S5000x2.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v23) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v36) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v38) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v51) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S64x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S5000x2.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1600000 : Shape := ⟨1, ![1600000]⟩
abbrev S100000x64 : Shape := ⟨2, ![100000, 64]⟩
abbrev S1x64 : Shape := ⟨2, ![1, 64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S100000x2 : Shape := ⟨2, ![100000, 2]⟩
abbrev S1x2 : Shape := ⟨2, ![1, 2]⟩

abbrev nBuf : Space → Nat
  | .hbm => 110
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64, .f32⟩
  | .hbm, ⟨4, _⟩ => ⟨S64x2, .f32⟩
  | .hbm, ⟨5, _⟩ => ⟨S2, .f32⟩
  | .hbm, ⟨6, _⟩ => ⟨S1600000, .i32⟩
  | .hbm, ⟨7, _⟩ => ⟨S1600000, .i32⟩
  | .hbm, ⟨8, _⟩ => ⟨S1600000, .f32⟩
  | .hbm, ⟨9, _⟩ => ⟨S1600000, .i32⟩
  | .hbm, ⟨10, _⟩ => ⟨S1600000, .i32⟩
  | .hbm, ⟨11, _⟩ => ⟨S1600000, .f32⟩
  | .hbm, ⟨12, _⟩ => ⟨S100000x64, .f32⟩
  | .hbm, ⟨13, _⟩ => ⟨S1x64, .f32⟩
  | .hbm, ⟨14, _⟩ => ⟨S100000x64, .f32⟩
  | .hbm, ⟨15, _⟩ => ⟨S100000x64, .f32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x64, .f32⟩
  | .hbm, ⟨37, _⟩ => ⟨S100000x64, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x64, .f32⟩
  | .hbm, ⟨47, _⟩ => ⟨S1600000x1, .f32⟩
  | .hbm, ⟨48, _⟩ => ⟨S1600000x64, .f32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S100000, .f32⟩
  | .hbm, ⟨55, _⟩ => ⟨S100000x1, .f32⟩
  | .hbm, ⟨56, _⟩ => ⟨S100000x64, .f32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S100000x64, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S1600000x1, .i32⟩
  | .hbm, ⟨74, _⟩ => ⟨S100000, .f32⟩
  | .hbm, ⟨75, _⟩ => ⟨S_, .f32⟩
  | .hbm, ⟨76, _⟩ => ⟨S_, .f32⟩
  | .hbm, ⟨77, _⟩ => ⟨S100000, .f32⟩
  | .hbm, ⟨78, _⟩ => ⟨S100000, .f32⟩
  | .hbm, ⟨79, _⟩ => ⟨S100000, .f32⟩
  | .hbm, ⟨80, _⟩ => ⟨S100000x1, .f32⟩
  | .hbm, ⟨81, _⟩ => ⟨S100000x64, .f32⟩
  | .hbm, ⟨82, _⟩ => ⟨S100000x64, .f32⟩
  | .hbm, ⟨83, _⟩ => ⟨S_, .i32⟩
  | .hbm, ⟨84, _⟩ => ⟨S1600000, .i32⟩
  | .hbm, ⟨85, _⟩ => ⟨S1600000, .i1⟩
  | .hbm, ⟨86, _⟩ => ⟨S_, .i32⟩
  | .hbm, ⟨87, _⟩ => ⟨S1600000, .i32⟩
  | .hbm, ⟨88, _⟩ => ⟨S1600000, .i32⟩
  | .hbm, ⟨89, _⟩ => ⟨S1600000, .i32⟩
  | .hbm, ⟨90, _⟩ => ⟨S1600000x1, .i32⟩
  | .hbm, ⟨91, _⟩ => ⟨S1600000x64, .f32⟩
  | .hbm, ⟨92, _⟩ => ⟨S1600000x1, .f32⟩
  | .hbm, ⟨93, _⟩ => ⟨S1600000x64, .f32⟩
  | .hbm, ⟨94, _⟩ => ⟨S1600000x64, .f32⟩
  | .hbm, ⟨95, _⟩ => ⟨S_, .f32⟩
  | .hbm, ⟨96, _⟩ => ⟨S100000x64, .f32⟩
  | .hbm, ⟨97, _⟩ => ⟨S1600000x1, .i32⟩
  | .hbm, ⟨98, _⟩ => ⟨S100000x64, .f32⟩
  | .hbm, ⟨99, _⟩ => ⟨S100000, .f32⟩
  | .hbm, ⟨100, _⟩ => ⟨S100000x1, .f32⟩
  | .hbm, ⟨101, _⟩ => ⟨S100000x64, .f32⟩
  | .hbm, ⟨102, _⟩ => ⟨S100000x64, .f32⟩
  | .hbm, ⟨103, _⟩ => ⟨S_, .f32⟩
  | .hbm, ⟨104, _⟩ => ⟨S100000x64, .f32⟩
  | .hbm, ⟨105, _⟩ => ⟨S100000x64, .f32⟩
  | .hbm, ⟨106, _⟩ => ⟨S100000x2, .f32⟩
  | .hbm, ⟨107, _⟩ => ⟨S1x2, .f32⟩
  | .hbm, ⟨108, _⟩ => ⟨S100000x2, .f32⟩
  | .hbm, ⟨109, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_cst_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_call2_v0 : Ref sig .tc := ⟨.hbm, 68, rfl⟩
abbrev main_call2_v1 : Ref sig .tc := ⟨.hbm, 69, rfl⟩
abbrev main_v41 : Ref sig .tc := ⟨.hbm, 70, rfl⟩
abbrev main_cst_9 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_10 : Ref sig .tc := ⟨.hbm, 75, rfl⟩
abbrev main_call3_v0 : Ref sig .tc := ⟨.hbm, 76, rfl⟩
abbrev main_call3_v1 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_c_11 : Ref sig .tc := ⟨.hbm, 83, rfl⟩
abbrev main_v50 : Ref sig .tc := ⟨.hbm, 84, rfl⟩
abbrev main_v51 : Ref sig .tc := ⟨.hbm, 85, rfl⟩
abbrev main_c_12 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_13 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_call4_cst : Ref sig .tc := ⟨.hbm, 103, rfl⟩
abbrev main_call4_v0 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x2_S100000x2_1_0_0_1_n_n_wf : DotDims.WF S100000x64 S64x2 S100000x2 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.Layers.lean ====
/-
  The three node-wise layers of the two-convolution graph network, each as one function of whole arrays over the
  extended reals, entry by entry. N = 100000 nodes, 128 input features, 64 hidden features, 2 classes.

  * `linear1`: row p, column q of (x · W1 + b1) scaled by the inverse square root of the row's out-degree.
  * `gate`: an aggregated row scaled by the inverse square roots of its in-degree (first graph) and out-degree (second
    graph), times the learned per-column gate.
  * `finalize`: the aggregated row scaled by the inverse square root of its in-degree, clamped below at zero, times W3,
    plus b3.
-/
import Idealize.ShloMosaic.PureOps.Ideal
import Idealize.ShloMosaic.Lib.ValueIdx

noncomputable section

namespace Cert.Layers

open Idealize.ShloMosaic Idealize.ShloMosaic.ValueIdx

abbrev SNxI : Shape := ⟨2, ![100000, 128]⟩
abbrev SIxH : Shape := ⟨2, ![128, 64]⟩
abbrev S1xH : Shape := ⟨2, ![1, 64]⟩
abbrev SNx1 : Shape := ⟨2, ![100000, 1]⟩
abbrev SNxH : Shape := ⟨2, ![100000, 64]⟩
abbrev SHxC : Shape := ⟨2, ![64, 2]⟩
abbrev S1xC : Shape := ⟨2, ![1, 2]⟩
abbrev SNxC : Shape := ⟨2, ![100000, 2]⟩

abbrev SN : Shape := ⟨1, ![100000]⟩
abbrev SH : Shape := ⟨1, ![64]⟩
abbrev SC : Shape := ⟨1, ![2]⟩

/-- A per-node vector as an N × 1 column. -/
def colOf (d : FVec Ideal SN .f32) : FVec Ideal SNx1 .f32 := fun i => d (ix1 (i 0))
/-- A per-column vector of the hidden width as a 1 × 64 row. -/
def rowH (b : FVec Ideal SH .f32) : FVec Ideal S1xH .f32 := fun i => b (ix1 (i 1))
/-- A per-class vector as a 1 × 2 row. -/
def rowC (b : FVec Ideal SC .f32) : FVec Ideal S1xC .f32 := fun i => b (ix1 (i 1))

theorem colOf_apply (d : FVec Ideal SN .f32) (p : Fin 100000) : colOf d (ix2 p 0) = d (ix1 p) := rfl
theorem rowH_apply (b : FVec Ideal SH .f32) (q : Fin 64) : rowH b (ix2 0 q) = b (ix1 q) := rfl
theorem rowC_apply (b : FVec Ideal SC .f32) (q : Fin 2) : rowC b (ix2 0 q) = b (ix1 q) := rfl

/-- Entry (p, q) of the first layer: the p-th row of x against the q-th column of W1, plus the bias, times the inverse
    square root of node p's degree. -/
def linear1At (x : FVec Ideal SNxI .f32) (w : FVec Ideal SIxH .f32) (b : FVec Ideal S1xH .f32) (d : FVec Ideal SNx1 .f32)
    (p : Fin 100000) (q : Fin 64) : EReal :=
  ((∑ k : Fin 128, x (ix2 p k) * w (ix2 k q)) + b (ix2 0 q)) * Ideal.rsqrt (d (ix2 p 0))

def linear1 (x : FVec Ideal SNxI .f32) (w : FVec Ideal SIxH .f32) (b : FVec Ideal S1xH .f32) (d : FVec Ideal SNx1 .f32) :
    FVec Ideal SNxH .f32 := fun i => linear1At x w b d (i 0) (i 1)

/-- Entry (p, q) of the gate layer: the aggregated entry times the product of the two inverse square roots of node p's
    degrees, times the gate of column q. -/
def gateAt (a : FVec Ideal SNxH .f32) (din : FVec Ideal SNx1 .f32) (k : FVec Ideal S1xH .f32) (dout : FVec Ideal SNx1 .f32)
    (p : Fin 100000) (q : Fin 64) : EReal :=
  a (ix2 p q) * (Ideal.rsqrt (din (ix2 p 0)) * Ideal.rsqrt (dout (ix2 p 0))) * k (ix2 0 q)

def gate (a : FVec Ideal SNxH .f32) (din : FVec Ideal SNx1 .f32) (k : FVec Ideal S1xH .f32) (dout : FVec Ideal SNx1 .f32) :
    FVec Ideal SNxH .f32 := fun i => gateAt a din k dout (i 0) (i 1)

/-- Entry (p, q) of the last layer: the clamped, degree-scaled p-th aggregated row against the q-th column of W3, plus
    the bias. -/
def finalizeAt (a : FVec Ideal SNxH .f32) (d : FVec Ideal SNx1 .f32) (w : FVec Ideal SHxC .f32) (b : FVec Ideal S1xC .f32)
    (p : Fin 100000) (q : Fin 2) : EReal :=
  (∑ k : Fin 64, max (a (ix2 p k) * Ideal.rsqrt (d (ix2 p 0))) (Ideal.ofBits .f32 0x00000000#32) * w (ix2 k q)) + b (ix2 0 q)

def finalize (a : FVec Ideal SNxH .f32) (d : FVec Ideal SNx1 .f32) (w : FVec Ideal SHxC .f32) (b : FVec Ideal S1xC .f32) :
    FVec Ideal SNxC .f32 := fun i => finalizeAt a d w b (i 0) (i 1)

end Cert.Layers

end
-- ==== Proof.HostFns.lean ====
/-
  The two host functions that both programs share, over the kernel program's shapes, and the host's reshapes of a
  vector to a column or a row.

  The degree of a node is the number of edges that have it as the given endpoint, clamped below at 1: ones scatter-added
  at the endpoints, then a maximum with 1. One graph convolution without its degree scalings gathers the rows of h at the
  edges' sources (a negative index counted from the end), multiplies by the edge weights and adds up at the edges'
  destinations. Both stay opaque in the proof: each program applies the same function to equal arguments.
-/
import proofs.«107002_j41970420418155_1_alg».proof.Proof.Gen.KernelIdeal
import proofs.«107002_j41970420418155_1_alg».proof.Proof.Layers
import Idealize.ShloMosaic.Lib.Pipeline.Value
import Idealize.ShloMosaic.Lib.ValueIdx
import Idealize.ShloMosaic.Lib.ValueLayout
import Idealize.ShloMosaic.PureOps.Ideal

noncomputable section

namespace Cert.KernelIdeal.HostFns

open Idealize.ShloMosaic Idealize.ShloMosaic.ValueIdx
open Cert.KernelIdeal Cert.KernelIdeal.Gen Cert.Layers

/-! ## The two host functions both programs share -/

/-- The scalar one, the vector of ones over the edges, and the zero vector over the nodes. -/
def one0 : FVec Ideal S_ .f32 := constant (F := Ideal) S_ .f32 0x3F800000#32
def ones : FVec Ideal S1600000 .f32 := broadcastInDim S1600000 ![] bcast_S_S1600000 (constant (F := Ideal) S_ .f32 0x3F800000#32)

/-- How many edges have each node as the given endpoint: the given per-edge values added up at the endpoints. -/
def count (u : FVec Ideal S1600000 .f32) (idx : Vec Ideal S1600000 .i32) : FVec Ideal S100000 .f32 :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 idx) u

/-- A per-node vector clamped below at a scalar. -/
def clampBelow (k : FVec Ideal S_ .f32) (x : FVec Ideal S100000 .f32) : FVec Ideal S100000 .f32 :=
  maximumf (broadcastInDim S100000 ![] bcast_S_S100000 (id k)) x

/-- The out- or in-degree of every node, clamped below at 1. -/
def deg (idx : Vec Ideal S1600000 .i32) : FVec Ideal S100000 .f32 := clampBelow one0 (count ones idx)

/-- One graph convolution without its two degree scalings: the rows of h gathered at the edges' sources (a negative
    index counted from the end), times the edge weights, added up at the edges' destinations. -/
def gatherScatter (h : FVec Ideal S100000x64 .f32) (src dst : Vec Ideal S1600000 .i32) (w : FVec Ideal S1600000 .f32) :
    FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (mulf
      (Host.gather gather_S100000x64_S1600000x1_S1600000x64_1_0_n_n_0_1_164 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x64 ![0, 1] bcast_S1600000x1_S1600000x64_0_1
        (broadcastInDim S1600000x1 ![0] bcast_S1600000_S1600000x1_0 w)))

/-! ## The host's reshapes of a vector to a column or a row -/

theorem col_eq (d : FVec Ideal S100000 .f32) : shapeCast S100000x1 d shapeCasts_S100000_S100000x1 = colOf d := by
  funext i
  obtain ⟨p, u, rfl⟩ : ∃ (p : Fin 100000) (u : Fin 1), i = ix2 p u := ⟨i 0, i 1, eq_ix2 i⟩
  refine (shapeCast_apply d _ (ix2 p u) (ix1 p) ?_).trans rfl
  rw [Shape.rowMajor_val_two, Shape.rowMajor_val_one]
  show p.val = p.val * 1 + u.val
  have hu : u.val = 0 := by omega
  omega

theorem rowH_eq (b : FVec Ideal S64 .f32) : shapeCast S1x64 b shapeCasts_S64_S1x64 = rowH b := by
  funext i
  obtain ⟨u, q, rfl⟩ : ∃ (u : Fin 1) (q : Fin 64), i = ix2 u q := ⟨i 0, i 1, eq_ix2 i⟩
  exact shapeCast_a_1a_apply b _ u q

theorem rowC_eq (b : FVec Ideal S2 .f32) : shapeCast S1x2 b shapeCasts_S2_S1x2 = rowC b := by
  funext i
  obtain ⟨u, q, rfl⟩ : ∃ (u : Fin 1) (q : Fin 2), i = ix2 u q := ⟨i 0, i 1, eq_ix2 i⟩
  exact shapeCast_a_1a_apply b _ u q

end Cert.KernelIdeal.HostFns

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.LinearValue.lean ====
/-
  The first region, read as a whole array.

  Each of the twenty grid points takes rows 5000·t … 5000·t + 4999 of the input features and of the out-degree column,
  the whole weight matrix and the one bias row; what it writes back to those rows of the result is, entry by entry, the
  row of features against the column of weights, plus the bias, times the inverse square root of the row's degree (the
  roundings to bf16 on the way into the product are the identity over the extended reals). The twenty row blocks tile the
  result, so after the region the result array is `Cert.Layers.linear1` of the arrays the region was entered with.
-/
import proofs.«107002_j41970420418155_1_alg».proof.Proof.Gen.KernelIdeal.Frame
import proofs.«107002_j41970420418155_1_alg».proof.Proof.Layers
import proofs.«107002_j41970420418155_1_alg».proof.Proof.LibMatmul
import Idealize.ShloMosaic.Lib.Pipeline.Value
import Idealize.ShloMosaic.Lib.ValueIdx
import Idealize.ShloMosaic.Lib.ValueLayout

set_option maxRecDepth 16384

noncomputable section

namespace Cert.KernelIdeal.LinearValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The arrays the region is entered with, at their literal types: the input features, the weights, the bias row, the
    out-degree column of the first graph. -/
abbrev feats (c : Dev nD) : FVec Ideal S100000x128 .f32 := V c main_arg0
abbrev weights (c : Dev nD) : FVec Ideal S128x64 .f32 := V c main_arg1
abbrev biasRow (c : Dev nD) : FVec Ideal S1x64 .f32 := V c main_v22
abbrev degOut (c : Dev nD) : FVec Ideal S100000x1 .f32 := V c main_v9

theorem origin : (![0, 0] : Fin 2 → Nat) = fun _ => 0 := funext fun a => by fin_cases a <;> rfl

/-- The degree column broadcast along the 64 columns reads the row's entry. -/
theorem colBroadcast_apply (v : FVec Ideal S5000x1 .f32) (p : Fin 5000) (q : Fin 64) :
    broadcastTo S5000x64 v broadcasts_S5000x1_S5000x64 (ix2 p q) = v (ix2 p 0) := by
  refine broadcastTo_apply v _ (ix2 p q) (ix2 p 0) fun a => ?_
  match a with
  | ⟨0, _⟩ => rfl
  | ⟨1, _⟩ => rfl

/-- The bias row broadcast along the 5000 rows reads the column's entry. -/
theorem rowBroadcast_apply (v : FVec Ideal S1x64 .f32) (p : Fin 5000) (q : Fin 64) :
    broadcastTo S5000x64 v broadcasts_S1x64_S5000x64 (ix2 p q) = v (ix2 0 q) := by
  refine broadcastTo_apply v _ (ix2 p q) (ix2 0 q) fun a => ?_
  match a with
  | ⟨0, _⟩ => rfl
  | ⟨1, _⟩ => rfl

/-- The block's product into the zero accumulator, at row p and column q: the sum over the 128 features. -/
theorem product_apply (x : FVec Ideal S5000x128 .bf16) (w : FVec Ideal S128x64 .bf16) (p : Fin 5000) (q : Fin 64) :
    matmul dot_S5000x128_S128x64_S5000x64_1_0_0_1_n_n none x w (constant S5000x64 .f32 0x00000000#32) (ix2 p q)
      = ∑ k : Fin 128, x (ix2 p k) * w (ix2 k q) :=
  Cert.Matmul.matmul_plain_apply (M := 5000) (K := 128) (N := 64) none x w p q

/-- The body's stored value at row p, column q of the block. -/
theorem payload_apply (x : Vec Ideal S5000x128 .f32) (w : Vec Ideal S128x64 .f32) (b : Vec Ideal S1x64 .f32)
    (d : Vec Ideal S5000x1 .f32) (p : Fin 5000) (q : Fin 64) :
    k0_pay1 (F := Ideal) x w b d (ix2 p q)
      = ((∑ k : Fin 128, x (ix2 p k) * w (ix2 k q)) + b (ix2 0 q)) * Ideal.rsqrt (d (ix2 p 0)) := by
  unfold k0_pay1
  simp only [shapeCast_self]
  rw [mulf_apply, addf_apply, colBroadcast_apply, rowBroadcast_apply, product_apply]
  rfl

/-! ## From blocks to the array -/

/-- The printed index maps over the twenty points: the row-blocked windows sit at block t of the rows, the weights and
    the bias row at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row p of block t is row 5000·t + p of the array. -/
def row (t : Fin cfg0.N) (p : Fin 5000) : Fin 100000 :=
  ⟨t.val * 5000 + p.val, by have h : t.val < grid0.N := t.isLt; have hN : grid0.N = 20 := N_0; have hp := p.isLt; omega⟩

theorem emb0 (t : Fin cfg0.N) (p : Fin 5000) (k : Fin 128) :
    ((cfg0.win 0).blk t).view.emb (ix2 p k) = ix2 (row t p) k := by
  obtain ⟨e00, e01, -⟩ := idx_facts t
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

theorem emb1 (t : Fin cfg0.N) (k : Fin 128) (q : Fin 64) :
    ((cfg0.win 1).blk t).view.emb (ix2 k q) = ix2 k q := by
  obtain ⟨-, -, e10, e11, -⟩ := idx_facts t
  funext a; apply Fin.ext
  match a with
  | ⟨0, _⟩ => show win0_1.index t (0 : Fin 2) * 128 + 1 * k.val = k.val; omega
  | ⟨1, _⟩ => show win0_1.index t (1 : Fin 2) * 64 + 1 * q.val = q.val; omega

theorem emb2 (t : Fin cfg0.N) (q : Fin 64) :
    ((cfg0.win 2).blk t).view.emb (ix2 0 q) = ix2 0 q := by
  obtain ⟨-, -, -, -, e20, e21, -⟩ := idx_facts t
  funext a; apply Fin.ext
  match a with
  | ⟨0, _⟩ => show win0_2.index t (0 : Fin 2) * 1 + 1 * 0 = 0; omega
  | ⟨1, _⟩ => show win0_2.index t (1 : Fin 2) * 64 + 1 * q.val = q.val; omega

theorem emb3 (t : Fin cfg0.N) (p : Fin 5000) :
    ((cfg0.win 3).blk t).view.emb (ix2 p 0) = ix2 (row t p) 0 := by
  obtain ⟨-, -, -, -, -, -, e30, e31, -⟩ := idx_facts t
  funext a; apply Fin.ext
  match a with
  | ⟨0, _⟩ => show win0_3.index t (0 : Fin 2) * 5000 + 1 * p.val = t.val * 5000 + p.val; omega
  | ⟨1, _⟩ => show win0_3.index t (1 : Fin 2) * 1 + 1 * 0 = 0; omega

theorem emb4 (t : Fin cfg0.N) (p : Fin 5000) (q : Fin 64) :
    ((cfg0.win 4).blk t).view.emb (ix2 p q) = ix2 (row t p) q := by
  obtain ⟨-, -, -, -, -, -, -, -, e40, e41⟩ := idx_facts t
  funext a; apply Fin.ext
  match a with
  | ⟨0, _⟩ => show win0_4.index t (0 : Fin 2) * 5000 + 1 * p.val = t.val * 5000 + p.val; omega
  | ⟨1, _⟩ => show win0_4.index t (1 : Fin 2) * 64 + 1 * q.val = q.val; omega

/-- What point t writes back is block t of the first layer of the arrays the region was entered with. -/
theorem flushed_eq (c : Dev nD) (t : Fin cfg0.N) :
    (dat0 V c).flushed 4 t = ((cfg0.win 4).blk t).view.read (Elt Ideal)
      (Cert.Layers.linear1 (feats V c) (weights V c) (biasRow V c) (degOut V c)) := by
  show (cfg0.win 4).cut (grid0.coords t) ((dat0 V c).after 4 t) = _
  rw [after0_4]
  unfold out0_4
  rw [View.canon_unit_zero origin]
  simp only [View.ld_unit_zero (S := S5000x128) origin, View.ld_unit_zero (S := S128x64) origin,
    View.ld_unit_zero (S := S1x64) origin, View.ld_unit_zero (S := S5000x1) origin]
  funext j
  obtain ⟨p, q, rfl⟩ : ∃ (p : Fin 5000) (q : Fin 64), j = ix2 p q := ⟨j 0, j 1, eq_ix2 j⟩
  refine (payload_apply (iblk0 V c 0 t) (iblk0 V c 1 t) (iblk0 V c 2 t) (iblk0 V c 3 t) p q).trans ?_
  show ((∑ k : Fin 128, feats V c (((cfg0.win 0).blk t).view.emb (ix2 p k)) * weights V c (((cfg0.win 1).blk t).view.emb (ix2 k q)))
        + biasRow V c (((cfg0.win 2).blk t).view.emb (ix2 0 q)))
      * Ideal.rsqrt (degOut V c (((cfg0.win 3).blk t).view.emb (ix2 p 0)))
    = Cert.Layers.linear1 (feats V c) (weights V c) (biasRow V c) (degOut V c) (((cfg0.win 4).blk t).view.emb (ix2 p q))
  have hs : (∑ k : Fin 128, feats V c (((cfg0.win 0).blk t).view.emb (ix2 p k)) * weights V c (((cfg0.win 1).blk t).view.emb (ix2 k q)))
      = ∑ k : Fin 128, feats V c (ix2 (row t p) k) * weights V c (ix2 k q) :=
    Finset.sum_congr rfl fun k _ => by rw [emb0, emb1]
  rw [hs, emb2, emb3, emb4]
  rfl

/-- An index of the result is in point t's block iff its row is among the block's 5000 rows. -/
theorem mem_blk (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v23).slice (win0_4.rect t)).set ↔ _
  rw [View.set_slice_whole, Rect.mem_set_unit]
  exact Iff.rfl

/-- Every block index on the row axis is some point's. -/
theorem idx_onto : ∀ b : Fin 20, ∃ t : Fin cfg0.N, win0_4.index t = ![b.val, 0] :=
  (by decide +kernel : ∀ b : Fin 20, ∃ t : Fin grid0.N, win0_4.index t = ![b.val, 0])

/-- The twenty row blocks cover the result array. -/
theorem cover (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  obtain ⟨t, ht⟩ := idx_onto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

/-- THE RESULT ARRAY after the region is the first layer of the arrays the region was entered with. -/
theorem final (c : Dev nD) :
    (dat0 V c).arrAt 4 cfg0.N = Cert.Layers.linear1 (feats V c) (weights V c) (biasRow V c) (degOut V c) :=
  (dat0 V c).arrAt_eq_of_cover 4 _ (fun t _ => flushed_eq V c t) cover

end Cert.KernelIdeal.LinearValue

end
-- ==== Proof.GateValue.lean ====
/-
  The gate region, read as a whole array.

  Each of the twenty grid points takes rows 5000·t … 5000·t + 4999 of the aggregated array and of the two degree
  columns, and the one gate row; what it writes back to those rows of the result is, entry by entry, the aggregated
  entry times the product of the inverse square roots of the row's two degrees, times the gate of the column. The twenty
  row blocks tile the result, so after the region the result array is `Cert.Layers.gate` of the arrays the region was
  entered with.
-/
import proofs.«107002_j41970420418155_1_alg».proof.Proof.Gen.KernelIdeal.Frame
import proofs.«107002_j41970420418155_1_alg».proof.Proof.Layers
import Idealize.ShloMosaic.Lib.Pipeline.Value
import Idealize.ShloMosaic.Lib.ValueIdx
import Idealize.ShloMosaic.Lib.ValueLayout

set_option maxRecDepth 16384

noncomputable section

namespace Cert.KernelIdeal.GateValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The arrays the region is entered with, at their literal types: the aggregated rows, the in-degree column of the
    first graph, the gate row, the out-degree column of the second graph. -/
abbrev aggr (c : Dev nD) : FVec Ideal S100000x64 .f32 := V c main_v36
abbrev degIn (c : Dev nD) : FVec Ideal S100000x1 .f32 := V c main_v10
abbrev gateRow (c : Dev nD) : FVec Ideal S1x64 .f32 := V c main_v37
abbrev degOut (c : Dev nD) : FVec Ideal S100000x1 .f32 := V c main_v20

theorem origin : (![0, 0] : Fin 2 → Nat) = fun _ => 0 := funext fun a => by fin_cases a <;> rfl

/-- A degree column broadcast along the 64 columns reads the row's entry. -/
theorem colBroadcast_apply (v : FVec Ideal S5000x1 .f32) (p : Fin 5000) (q : Fin 64) :
    broadcastTo S5000x64 v broadcasts_S5000x1_S5000x64 (ix2 p q) = v (ix2 p 0) := by
  refine broadcastTo_apply v _ (ix2 p q) (ix2 p 0) fun a => ?_
  match a with
  | ⟨0, _⟩ => rfl
  | ⟨1, _⟩ => rfl

/-- The gate row broadcast along the 5000 rows reads the column's entry. -/
theorem rowBroadcast_apply (v : FVec Ideal S1x64 .f32) (p : Fin 5000) (q : Fin 64) :
    broadcastTo S5000x64 v broadcasts_S1x64_S5000x64 (ix2 p q) = v (ix2 0 q) := by
  refine broadcastTo_apply v _ (ix2 p q) (ix2 0 q) fun a => ?_
  match a with
  | ⟨0, _⟩ => rfl
  | ⟨1, _⟩ => rfl

/-- The body's stored value at row p, column q of the block. -/
theorem payload_apply (din dout : Vec Ideal S5000x1 .f32) (a : Vec Ideal S5000x64 .f32) (k : Vec Ideal S1x64 .f32)
    (p : Fin 5000) (q : Fin 64) :
    k1_pay1 (F := Ideal) din dout a k (ix2 p q)
      = a (ix2 p q) * (Ideal.rsqrt (din (ix2 p 0)) * Ideal.rsqrt (dout (ix2 p 0))) * k (ix2 0 q) := by
  unfold k1_pay1
  simp only [shapeCast_self]
  rw [mulf_apply, mulf_apply, colBroadcast_apply, rowBroadcast_apply, mulf_apply]
  rfl

/-! ## From blocks to the array -/

/-- The printed index maps over the twenty points: the row-blocked windows sit at block t of the rows, the gate row at
    block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Row p of block t is row 5000·t + p of the array. -/
def row (t : Fin cfg1.N) (p : Fin 5000) : Fin 100000 :=
  ⟨t.val * 5000 + p.val, by have h : t.val < grid1.N := t.isLt; have hN : grid1.N = 20 := N_1; have hp := p.isLt; omega⟩

theorem emb0 (t : Fin cfg1.N) (p : Fin 5000) (q : Fin 64) :
    ((cfg1.win 0).blk t).view.emb (ix2 p q) = ix2 (row t p) q := by
  obtain ⟨e00, e01, -⟩ := idx_facts t
  funext a; apply Fin.ext
  match a with
  | ⟨0, _⟩ => show win1_0.index t (0 : Fin 2) * 5000 + 1 * p.val = t.val * 5000 + p.val; omega
  | ⟨1, _⟩ => show win1_0.index t (1 : Fin 2) * 64 + 1 * q.val = q.val; omega

theorem emb1 (t : Fin cfg1.N) (p : Fin 5000) :
    ((cfg1.win 1).blk t).view.emb (ix2 p 0) = ix2 (row t p) 0 := by
  obtain ⟨-, -, e10, e11, -⟩ := idx_facts t
  funext a; apply Fin.ext
  match a with
  | ⟨0, _⟩ => show win1_1.index t (0 : Fin 2) * 5000 + 1 * p.val = t.val * 5000 + p.val; omega
  | ⟨1, _⟩ => show win1_1.index t (1 : Fin 2) * 1 + 1 * 0 = 0; omega

theorem emb2 (t : Fin cfg1.N) (q : Fin 64) :
    ((cfg1.win 2).blk t).view.emb (ix2 0 q) = ix2 0 q := by
  obtain ⟨-, -, -, -, e20, e21, -⟩ := idx_facts t
  funext a; apply Fin.ext
  match a with
  | ⟨0, _⟩ => show win1_2.index t (0 : Fin 2) * 1 + 1 * 0 = 0; omega
  | ⟨1, _⟩ => show win1_2.index t (1 : Fin 2) * 64 + 1 * q.val = q.val; omega

theorem emb3 (t : Fin cfg1.N) (p : Fin 5000) :
    ((cfg1.win 3).blk t).view.emb (ix2 p 0) = ix2 (row t p) 0 := by
  obtain ⟨-, -, -, -, -, -, e30, e31, -⟩ := idx_facts t
  funext a; apply Fin.ext
  match a with
  | ⟨0, _⟩ => show win1_3.index t (0 : Fin 2) * 5000 + 1 * p.val = t.val * 5000 + p.val; omega
  | ⟨1, _⟩ => show win1_3.index t (1 : Fin 2) * 1 + 1 * 0 = 0; omega

theorem emb4 (t : Fin cfg1.N) (p : Fin 5000) (q : Fin 64) :
    ((cfg1.win 4).blk t).view.emb (ix2 p q) = ix2 (row t p) q := by
  obtain ⟨-, -, -, -, -, -, -, -, e40, e41⟩ := idx_facts t
  funext a; apply Fin.ext
  match a with
  | ⟨0, _⟩ => show win1_4.index t (0 : Fin 2) * 5000 + 1 * p.val = t.val * 5000 + p.val; omega
  | ⟨1, _⟩ => show win1_4.index t (1 : Fin 2) * 64 + 1 * q.val = q.val; omega

/-- What point t writes back is block t of the gate layer of the arrays the region was entered with. -/
theorem flushed_eq (c : Dev nD) (t : Fin cfg1.N) :
    (dat1 V c).flushed 4 t = ((cfg1.win 4).blk t).view.read (Elt Ideal)
      (Cert.Layers.gate (aggr V c) (degIn V c) (gateRow V c) (degOut V c)) := by
  show (cfg1.win 4).cut (grid1.coords t) ((dat1 V c).after 4 t) = _
  rw [after1_4]
  unfold out1_4
  rw [View.canon_unit_zero origin]
  simp only [View.ld_unit_zero (S := S5000x1) origin, View.ld_unit_zero (S := S5000x64) origin,
    View.ld_unit_zero (S := S1x64) origin]
  funext j
  obtain ⟨p, q, rfl⟩ : ∃ (p : Fin 5000) (q : Fin 64), j = ix2 p q := ⟨j 0, j 1, eq_ix2 j⟩
  refine (payload_apply (iblk1 V c 1 t) (iblk1 V c 3 t) (iblk1 V c 0 t) (iblk1 V c 2 t) p q).trans ?_
  show aggr V c (((cfg1.win 0).blk t).view.emb (ix2 p q))
      * (Ideal.rsqrt (degIn V c (((cfg1.win 1).blk t).view.emb (ix2 p 0)))
        * Ideal.rsqrt (degOut V c (((cfg1.win 3).blk t).view.emb (ix2 p 0))))
      * gateRow V c (((cfg1.win 2).blk t).view.emb (ix2 0 q))
    = Cert.Layers.gate (aggr V c) (degIn V c) (gateRow V c) (degOut V c) (((cfg1.win 4).blk t).view.emb (ix2 p q))
  rw [emb0, emb1, emb2, emb3, emb4]
  rfl

/-- An index of the result is in point t's block iff its row is among the block's 5000 rows. -/
theorem mem_blk (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v38).slice (win1_4.rect t)).set ↔ _
  rw [View.set_slice_whole, Rect.mem_set_unit]
  exact Iff.rfl

/-- Every block index on the row axis is some point's. -/
theorem idx_onto : ∀ b : Fin 20, ∃ t : Fin cfg1.N, win1_4.index t = ![b.val, 0] :=
  (by decide +kernel : ∀ b : Fin 20, ∃ t : Fin grid1.N, win1_4.index t = ![b.val, 0])

/-- The twenty row blocks cover the result array. -/
theorem cover (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- THE RESULT ARRAY after the region is the gate layer of the arrays the region was entered with. -/
theorem final (c : Dev nD) :
    (dat1 V c).arrAt 4 cfg1.N = Cert.Layers.gate (aggr V c) (degIn V c) (gateRow V c) (degOut V c) :=
  (dat1 V c).arrAt_eq_of_cover 4 _ (fun t _ => flushed_eq V c t) cover

end Cert.KernelIdeal.GateValue

end
-- ==== Proof.FinalValue.lean ====
/-
  The last region, read as a whole array.

  Each of the twenty grid points takes rows 5000·t … 5000·t + 4999 of the aggregated array and of the in-degree column,
  the whole 64 × 2 weight matrix and the one bias row; what it writes back to those rows of the result is, entry by
  entry, the degree-scaled aggregated row clamped below at zero, against the column of weights, plus the bias (the
  roundings to bf16 on the way into the product are the identity over the extended reals). The twenty row blocks tile the
  result, so after the region the result array is `Cert.Layers.finalize` of the arrays the region was entered with.
-/
import proofs.«107002_j41970420418155_1_alg».proof.Proof.Gen.KernelIdeal.Frame
import proofs.«107002_j41970420418155_1_alg».proof.Proof.Layers
import proofs.«107002_j41970420418155_1_alg».proof.Proof.LibMatmul
import Idealize.ShloMosaic.Lib.Pipeline.Value
import Idealize.ShloMosaic.Lib.ValueIdx
import Idealize.ShloMosaic.Lib.ValueLayout

set_option maxRecDepth 16384

noncomputable section

namespace Cert.KernelIdeal.FinalValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The arrays the region is entered with, at their literal types: the aggregated rows, the in-degree column of the
    second graph, the weights, the bias row. -/
abbrev aggr (c : Dev nD) : FVec Ideal S100000x64 .f32 := V c main_v51
abbrev degIn (c : Dev nD) : FVec Ideal S100000x1 .f32 := V c main_v21
abbrev weights (c : Dev nD) : FVec Ideal S64x2 .f32 := V c main_arg4
abbrev biasRow (c : Dev nD) : FVec Ideal S1x2 .f32 := V c main_v52

theorem origin : (![0, 0] : Fin 2 → Nat) = fun _ => 0 := funext fun a => by fin_cases a <;> rfl

/-- The degree column broadcast along the 64 columns reads the row's entry. -/
theorem colBroadcast_apply (v : FVec Ideal S5000x1 .f32) (p : Fin 5000) (k : Fin 64) :
    broadcastTo S5000x64 v broadcasts_S5000x1_S5000x64 (ix2 p k) = v (ix2 p 0) := by
  refine broadcastTo_apply v _ (ix2 p k) (ix2 p 0) fun a => ?_
  match a with
  | ⟨0, _⟩ => rfl
  | ⟨1, _⟩ => rfl

/-- The bias row broadcast along the 5000 rows reads the column's entry. -/
theorem rowBroadcast_apply (v : FVec Ideal S1x2 .f32) (p : Fin 5000) (q : Fin 2) :
    broadcastTo S5000x2 v broadcasts_S1x2_S5000x2 (ix2 p q) = v (ix2 0 q) := by
  refine broadcastTo_apply v _ (ix2 p q) (ix2 0 q) fun a => ?_
  match a with
  | ⟨0, _⟩ => rfl
  | ⟨1, _⟩ => rfl

/-- The block's product into the zero accumulator, at row p and column q: the sum over the 64 hidden features. -/
theorem product_apply (x : FVec Ideal S5000x64 .bf16) (w : FVec Ideal S64x2 .bf16) (p : Fin 5000) (q : Fin 2) :
    matmul dot_S5000x64_S64x2_S5000x2_1_0_0_1_n_n none x w (constant S5000x2 .f32 0x00000000#32) (ix2 p q)
      = ∑ k : Fin 64, x (ix2 p k) * w (ix2 k q) :=
  Cert.Matmul.matmul_plain_apply (M := 5000) (K := 64) (N := 2) none x w p q

/-- The body's stored value at row p, column q of the block. -/
theorem payload_apply (a : Vec Ideal S5000x64 .f32) (d : Vec Ideal S5000x1 .f32) (w : Vec Ideal S64x2 .f32)
    (b : Vec Ideal S1x2 .f32) (p : Fin 5000) (q : Fin 2) :
    k2_pay1 (F := Ideal) a d w b (ix2 p q)
      = (∑ k : Fin 64, max (a (ix2 p k) * Ideal.rsqrt (d (ix2 p 0))) (Ideal.ofBits .f32 0x00000000#32) * w (ix2 k q))
        + b (ix2 0 q) := by
  unfold k2_pay1
  simp only [shapeCast_self]
  rw [addf_apply, rowBroadcast_apply, product_apply]
  refine congrArg (· + b (ix2 0 q)) (Finset.sum_congr rfl fun k _ => ?_)
  rw [truncf_apply, truncf_apply, maximumf_apply, mulf_apply, colBroadcast_apply]
  rfl

/-! ## From blocks to the array -/

/-- The printed index maps over the twenty points: the row-blocked windows sit at block t of the rows, the weights and
    the bias row at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row p of block t is row 5000·t + p of the array. -/
def row (t : Fin cfg2.N) (p : Fin 5000) : Fin 100000 :=
  ⟨t.val * 5000 + p.val, by have h : t.val < grid2.N := t.isLt; have hN : grid2.N = 20 := N_2; have hp := p.isLt; omega⟩

theorem emb0 (t : Fin cfg2.N) (p : Fin 5000) (k : Fin 64) :
    ((cfg2.win 0).blk t).view.emb (ix2 p k) = ix2 (row t p) k := by
  obtain ⟨e00, e01, -⟩ := idx_facts t
  funext a; apply Fin.ext
  match a with
  | ⟨0, _⟩ => show win2_0.index t (0 : Fin 2) * 5000 + 1 * p.val = t.val * 5000 + p.val; omega
  | ⟨1, _⟩ => show win2_0.index t (1 : Fin 2) * 64 + 1 * k.val = k.val; omega

theorem emb1 (t : Fin cfg2.N) (p : Fin 5000) :
    ((cfg2.win 1).blk t).view.emb (ix2 p 0) = ix2 (row t p) 0 := by
  obtain ⟨-, -, e10, e11, -⟩ := idx_facts t
  funext a; apply Fin.ext
  match a with
  | ⟨0, _⟩ => show win2_1.index t (0 : Fin 2) * 5000 + 1 * p.val = t.val * 5000 + p.val; omega
  | ⟨1, _⟩ => show win2_1.index t (1 : Fin 2) * 1 + 1 * 0 = 0; omega

theorem emb2 (t : Fin cfg2.N) (k : Fin 64) (q : Fin 2) :
    ((cfg2.win 2).blk t).view.emb (ix2 k q) = ix2 k q := by
  obtain ⟨-, -, -, -, e20, e21, -⟩ := idx_facts t
  funext a; apply Fin.ext
  match a with
  | ⟨0, _⟩ => show win2_2.index t (0 : Fin 2) * 64 + 1 * k.val = k.val; omega
  | ⟨1, _⟩ => show win2_2.index t (1 : Fin 2) * 2 + 1 * q.val = q.val; omega

theorem emb3 (t : Fin cfg2.N) (q : Fin 2) :
    ((cfg2.win 3).blk t).view.emb (ix2 0 q) = ix2 0 q := by
  obtain ⟨-, -, -, -, -, -, e30, e31, -⟩ := idx_facts t
  funext a; apply Fin.ext
  match a with
  | ⟨0, _⟩ => show win2_3.index t (0 : Fin 2) * 1 + 1 * 0 = 0; omega
  | ⟨1, _⟩ => show win2_3.index t (1 : Fin 2) * 2 + 1 * q.val = q.val; omega

theorem emb4 (t : Fin cfg2.N) (p : Fin 5000) (q : Fin 2) :
    ((cfg2.win 4).blk t).view.emb (ix2 p q) = ix2 (row t p) q := by
  obtain ⟨-, -, -, -, -, -, -, -, e40, e41⟩ := idx_facts t
  funext a; apply Fin.ext
  match a with
  | ⟨0, _⟩ => show win2_4.index t (0 : Fin 2) * 5000 + 1 * p.val = t.val * 5000 + p.val; omega
  | ⟨1, _⟩ => show win2_4.index t (1 : Fin 2) * 2 + 1 * q.val = q.val; omega

/-- What point t writes back is block t of the last layer of the arrays the region was entered with. -/
theorem flushed_eq (c : Dev nD) (t : Fin cfg2.N) :
    (dat2 V c).flushed 4 t = ((cfg2.win 4).blk t).view.read (Elt Ideal)
      (Cert.Layers.finalize (aggr V c) (degIn V c) (weights V c) (biasRow V c)) := by
  show (cfg2.win 4).cut (grid2.coords t) ((dat2 V c).after 4 t) = _
  rw [after2_4]
  unfold out2_4
  rw [View.canon_unit_zero origin]
  simp only [View.ld_unit_zero (S := S5000x64) origin, View.ld_unit_zero (S := S5000x1) origin,
    View.ld_unit_zero (S := S64x2) origin, View.ld_unit_zero (S := S1x2) origin]
  funext j
  obtain ⟨p, q, rfl⟩ : ∃ (p : Fin 5000) (q : Fin 2), j = ix2 p q := ⟨j 0, j 1, eq_ix2 j⟩
  refine (payload_apply (iblk2 V c 0 t) (iblk2 V c 1 t) (iblk2 V c 2 t) (iblk2 V c 3 t) p q).trans ?_
  show (∑ k : Fin 64, max (aggr V c (((cfg2.win 0).blk t).view.emb (ix2 p k))
            * Ideal.rsqrt (degIn V c (((cfg2.win 1).blk t).view.emb (ix2 p 0)))) (Ideal.ofBits .f32 0x00000000#32)
          * weights V c (((cfg2.win 2).blk t).view.emb (ix2 k q)))
        + biasRow V c (((cfg2.win 3).blk t).view.emb (ix2 0 q))
    = Cert.Layers.finalize (aggr V c) (degIn V c) (weights V c) (biasRow V c) (((cfg2.win 4).blk t).view.emb (ix2 p q))
  have hs : (∑ k : Fin 64, max (aggr V c (((cfg2.win 0).blk t).view.emb (ix2 p k))
            * Ideal.rsqrt (degIn V c (((cfg2.win 1).blk t).view.emb (ix2 p 0)))) (Ideal.ofBits .f32 0x00000000#32)
          * weights V c (((cfg2.win 2).blk t).view.emb (ix2 k q)))
      = ∑ k : Fin 64, max (aggr V c (ix2 (row t p) k) * Ideal.rsqrt (degIn V c (ix2 (row t p) 0))) (Ideal.ofBits .f32 0x00000000#32)
          * weights V c (ix2 k q) :=
    Finset.sum_congr rfl fun k _ => by rw [emb0, emb1, emb2]
  rw [hs, emb3, emb4]
  rfl

/-- An index of the result is in point t's block iff its row is among the block's 5000 rows. -/
theorem mem_blk (t : Fin cfg2.N) (i : S100000x2.Idx) :
    i ∈ ((cfg2.win 4).blk t).view.set ↔ ∀ a : Fin 2, win2_4.index t a * S5000x2.size a ≤ (i a).val ∧ (i a).val < win2_4.index t a * S5000x2.size a + S5000x2.size a := by
  show i ∈ ((View.whole main_v53).slice (win2_4.rect t)).set ↔ _
  rw [View.set_slice_whole, Rect.mem_set_unit]
  exact Iff.rfl

/-- Every block index on the row axis is some point's. -/
theorem idx_onto : ∀ b : Fin 20, ∃ t : Fin cfg2.N, win2_4.index t = ![b.val, 0] :=
  (by decide +kernel : ∀ b : Fin 20, ∃ t : Fin grid2.N, win2_4.index t = ![b.val, 0])

/-- The twenty row blocks cover the result array. -/
theorem cover (i : S100000x2.Idx) : ∃ t : Fin cfg2.N, (cfg2.win 4).flush t = true ∧ i ∈ ((cfg2.win 4).blk t).view.set := by
  have hi0 : (i 0).val < 100000 := (i 0).isLt
  have hi1 : (i 1).val < 2 := (i 1).isLt
  obtain ⟨t, ht⟩ := idx_onto ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 2 ≤ (i 1).val ∧ (i 1).val < win2_4.index t (1 : Fin 2) * 2 + 2; omega

/-- THE RESULT ARRAY after the region is the last layer of the arrays the region was entered with. -/
theorem final (c : Dev nD) :
    (dat2 V c).arrAt 4 cfg2.N = Cert.Layers.finalize (aggr V c) (degIn V c) (weights V c) (biasRow V c) :=
  (dat2 V c).arrAt_eq_of_cover 4 _ (fun t _ => flushed_eq V c t) cover

end Cert.KernelIdeal.FinalValue

end
-- ==== Proof.KernelValue.lean ====
/-
  What the kernel program's result buffer holds after its run, as one function of the twelve argument arrays.

  @main is: host operations that count the four degree vectors (out- and in-degrees of the two graphs, clamped below at
  1) and lay them out as columns; the first region; the first graph's gather, multiply by the edge weights and
  scatter-add; the gate region; the second graph's gather, multiply and scatter-add; the last region. The buffer contents
  at each boundary are read back through the host operations to the launch memory, and each region's result array is the
  layer function of the arrays the region is entered with (the three region modules). The two host functions that both
  programs share, the degree count and the gather-multiply-scatter, stay opaque.
-/
import proofs.«107002_j41970420418155_1_alg».proof.Proof.Gen.KernelIdeal.Frame
import proofs.«107002_j41970420418155_1_alg».proof.Proof.Layers
import proofs.«107002_j41970420418155_1_alg».proof.Proof.HostFns
import proofs.«107002_j41970420418155_1_alg».proof.Proof.LinearValue
import proofs.«107002_j41970420418155_1_alg».proof.Proof.GateValue
import proofs.«107002_j41970420418155_1_alg».proof.Proof.FinalValue
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.KernelValue

open Idealize.ShloMosaic Idealize.ShloMosaic.TcCoe Idealize.ShloMosaic.ValueIdx Idealize.SL.Sem Idealize.ShloMosaic.StableHlo
open Cert.KernelIdeal Cert.KernelIdeal.Gen Cert.Layers Cert.KernelIdeal.HostFns

variable (m : (ℓ : Loc nD τ sig) → Buf (Elt Ideal) ℓ) (ρ : Dev nD → PrngReg)

/-! ## The argument arrays at their literal types -/

abbrev inFeat (c : Dev nD) : FVec Ideal S100000x128 .f32 := m ((c : Thread nD τ).loc main_arg0)
abbrev w1 (c : Dev nD) : FVec Ideal S128x64 .f32 := m ((c : Thread nD τ).loc main_arg1)
abbrev b1 (c : Dev nD) : FVec Ideal S64 .f32 := m ((c : Thread nD τ).loc main_arg2)
abbrev gateVec (c : Dev nD) : FVec Ideal S64 .f32 := m ((c : Thread nD τ).loc main_arg3)
abbrev w3 (c : Dev nD) : FVec Ideal S64x2 .f32 := m ((c : Thread nD τ).loc main_arg4)
abbrev b3 (c : Dev nD) : FVec Ideal S2 .f32 := m ((c : Thread nD τ).loc main_arg5)
abbrev src1 (c : Dev nD) : Vec Ideal S1600000 .i32 := m ((c : Thread nD τ).loc main_arg6)
abbrev dst1 (c : Dev nD) : Vec Ideal S1600000 .i32 := m ((c : Thread nD τ).loc main_arg7)
abbrev ew1 (c : Dev nD) : FVec Ideal S1600000 .f32 := m ((c : Thread nD τ).loc main_arg8)
abbrev src2 (c : Dev nD) : Vec Ideal S1600000 .i32 := m ((c : Thread nD τ).loc main_arg9)
abbrev dst2 (c : Dev nD) : Vec Ideal S1600000 .i32 := m ((c : Thread nD τ).loc main_arg10)
abbrev ew2 (c : Dev nD) : FVec Ideal S1600000 .f32 := m ((c : Thread nD τ).loc main_arg11)

/-! ## The four clamps, from any contents -/

theorem clamp0 (V : Valuation τ sig (Elt Ideal)) (k : FVec Ideal S_ .f32) (x : FVec Ideal S100000 .f32)
    (hk : V (Proc.devRef .tc main_cst_1) = k) (hx : V (Proc.devRef .tc main_v3) = x) :
    StableHlo.after (hostOps0_1 (F := Ideal)) V (Proc.devRef .tc main_v4) = clampBelow k x := by
  after_results
  rw [hk, hx]
  rfl

theorem clamp1 (V : Valuation τ sig (Elt Ideal)) (k : FVec Ideal S_ .f32) (x : FVec Ideal S100000 .f32)
    (hk : V (Proc.devRef .tc main_cst_3) = k) (hx : V (Proc.devRef .tc main_v7) = x) :
    StableHlo.after (hostOps0_3 (F := Ideal)) V (Proc.devRef .tc main_v8) = clampBelow k x := by
  after_results
  rw [hk, hx]
  rfl

theorem clamp2 (V : Valuation τ sig (Elt Ideal)) (k : FVec Ideal S_ .f32) (x : FVec Ideal S100000 .f32)
    (hk : V (Proc.devRef .tc main_cst_6) = k) (hx : V (Proc.devRef .tc main_v14) = x) :
    StableHlo.after (hostOps0_5 (F := Ideal)) V (Proc.devRef .tc main_v15) = clampBelow k x := by
  after_results
  rw [hk, hx]
  rfl

theorem clamp3 (V : Valuation τ sig (Elt Ideal)) (k : FVec Ideal S_ .f32) (x : FVec Ideal S100000 .f32)
    (hk : V (Proc.devRef .tc main_cst_8) = k) (hx : V (Proc.devRef .tc main_v18) = x) :
    StableHlo.after (hostOps0_7 (F := Ideal)) V (Proc.devRef .tc main_v19) = clampBelow k x := by
  after_results
  rw [hk, hx]
  rfl

/-! ## The four degree vectors, read back to the launch memory -/

theorem W1_one (c : Dev nD) : W1 m ρ c (Proc.devRef .tc main_cst_1) = one0 := by
  dsimp only [W1, W0]
  after_results
  rfl

theorem W1_count (c : Dev nD) : W1 m ρ c (Proc.devRef .tc main_v3) = count ones (src1 m c) := by
  dsimp only [W1, W0]
  after_results
  rfl

theorem W2_deg (c : Dev nD) : W2 m ρ c (Proc.devRef .tc main_v4) = deg (src1 m c) :=
  clamp0 (W1 m ρ c) one0 (count ones (src1 m c)) (W1_one m ρ c) (W1_count m ρ c)

theorem W3_one (c : Dev nD) : W3 m ρ c (Proc.devRef .tc main_cst_3) = one0 := by
  dsimp only [W3, W2, W1, W0]
  after_results
  rfl

theorem W3_count (c : Dev nD) : W3 m ρ c (Proc.devRef .tc main_v7) = count ones (dst1 m c) := by
  dsimp only [W3, W2, W1, W0]
  after_results
  rfl

theorem W4_deg (c : Dev nD) : W4 m ρ c (Proc.devRef .tc main_v8) = deg (dst1 m c) :=
  clamp1 (W3 m ρ c) one0 (count ones (dst1 m c)) (W3_one m ρ c) (W3_count m ρ c)

theorem W5_one (c : Dev nD) : W5 m ρ c (Proc.devRef .tc main_cst_6) = one0 := by
  dsimp only [W5, W4, W3, W2, W1, W0]
  after_results
  rfl

theorem W5_count (c : Dev nD) : W5 m ρ c (Proc.devRef .tc main_v14) = count ones (src2 m c) := by
  dsimp only [W5, W4, W3, W2, W1, W0]
  after_results
  rfl

theorem W6_deg (c : Dev nD) : W6 m ρ c (Proc.devRef .tc main_v15) = deg (src2 m c) :=
  clamp2 (W5 m ρ c) one0 (count ones (src2 m c)) (W5_one m ρ c) (W5_count m ρ c)

theorem W7_one (c : Dev nD) : W7 m ρ c (Proc.devRef .tc main_cst_8) = one0 := by
  dsimp only [W7, W6, W5, W4, W3, W2, W1, W0]
  after_results
  rfl

theorem W7_count (c : Dev nD) : W7 m ρ c (Proc.devRef .tc main_v18) = count ones (dst2 m c) := by
  dsimp only [W7, W6, W5, W4, W3, W2, W1, W0]
  after_results
  rfl

theorem W8_deg (c : Dev nD) : W8 m ρ c (Proc.devRef .tc main_v19) = deg (dst2 m c) :=
  clamp3 (W7 m ρ c) one0 (count ones (dst2 m c)) (W7_one m ρ c) (W7_count m ρ c)

/-! ## The degree columns at the first region's entry: the later stretches only lay a degree vector out as a column -/

theorem col_v9 (V : Valuation τ sig (Elt Ideal)) (x : FVec Ideal S100000 .f32) (hx : V (Proc.devRef .tc main_v4) = x) :
    (StableHlo.after (hostOps0_8 (F := Ideal)) (StableHlo.after (hostOps0_7 (F := Ideal)) (StableHlo.after (hostOps0_6 (F := Ideal)) (StableHlo.after (hostOps0_5 (F := Ideal)) (StableHlo.after (hostOps0_4 (F := Ideal)) (StableHlo.after (hostOps0_3 (F := Ideal)) (StableHlo.after (hostOps0_2 (F := Ideal)) V))))))) (Proc.devRef .tc main_v9)
      = shapeCast S100000x1 x shapeCasts_S100000_S100000x1 := by
  after_results
  rw [hx]
  rfl

theorem col_v10 (V : Valuation τ sig (Elt Ideal)) (x : FVec Ideal S100000 .f32) (hx : V (Proc.devRef .tc main_v8) = x) :
    (StableHlo.after (hostOps0_8 (F := Ideal)) (StableHlo.after (hostOps0_7 (F := Ideal)) (StableHlo.after (hostOps0_6 (F := Ideal)) (StableHlo.after (hostOps0_5 (F := Ideal)) (StableHlo.after (hostOps0_4 (F := Ideal)) V))))) (Proc.devRef .tc main_v10)
      = shapeCast S100000x1 x shapeCasts_S100000_S100000x1 := by
  after_results
  rw [hx]
  rfl

theorem col_v20 (V : Valuation τ sig (Elt Ideal)) (x : FVec Ideal S100000 .f32) (hx : V (Proc.devRef .tc main_v15) = x) :
    (StableHlo.after (hostOps0_8 (F := Ideal)) (StableHlo.after (hostOps0_7 (F := Ideal)) (StableHlo.after (hostOps0_6 (F := Ideal)) V))) (Proc.devRef .tc main_v20)
      = shapeCast S100000x1 x shapeCasts_S100000_S100000x1 := by
  after_results
  rw [hx]
  rfl

theorem col_v21 (V : Valuation τ sig (Elt Ideal)) (x : FVec Ideal S100000 .f32) (hx : V (Proc.devRef .tc main_v19) = x) :
    (StableHlo.after (hostOps0_8 (F := Ideal)) V) (Proc.devRef .tc main_v21)
      = shapeCast S100000x1 x shapeCasts_S100000_S100000x1 := by
  after_results
  rw [hx]
  rfl

theorem W9_degOut1 (c : Dev nD) : W9 m ρ c (Proc.devRef .tc main_v9) = colOf (deg (src1 m c)) :=
  (col_v9 (W2 m ρ c) (deg (src1 m c)) (W2_deg m ρ c)).trans (col_eq _)
theorem W9_degIn1 (c : Dev nD) : W9 m ρ c (Proc.devRef .tc main_v10) = colOf (deg (dst1 m c)) :=
  (col_v10 (W4 m ρ c) (deg (dst1 m c)) (W4_deg m ρ c)).trans (col_eq _)
theorem W9_degOut2 (c : Dev nD) : W9 m ρ c (Proc.devRef .tc main_v20) = colOf (deg (src2 m c)) :=
  (col_v20 (W6 m ρ c) (deg (src2 m c)) (W6_deg m ρ c)).trans (col_eq _)
theorem W9_degIn2 (c : Dev nD) : W9 m ρ c (Proc.devRef .tc main_v21) = colOf (deg (dst2 m c)) :=
  (col_v21 (W8 m ρ c) (deg (dst2 m c)) (W8_deg m ρ c)).trans (col_eq _)

/-! ## The argument arrays at the first region's entry: no host operation before it writes one -/

theorem W9_bias (c : Dev nD) : W9 m ρ c (Proc.devRef .tc main_v22) = rowH (b1 m c) := by
  refine Eq.trans ?_ (rowH_eq (b1 m c))
  dsimp only [W9, W8, W7, W6, W5, W4, W3, W2, W1, W0]
  after_results
  rfl

theorem W9_arg0 (c : Dev nD) : W9 m ρ c (Proc.devRef .tc main_arg0) = inFeat m c := by
  dsimp only [W9, W8, W7, W6, W5, W4, W3, W2, W1, W0]; after_results
theorem W9_arg1 (c : Dev nD) : W9 m ρ c (Proc.devRef .tc main_arg1) = w1 m c := by
  dsimp only [W9, W8, W7, W6, W5, W4, W3, W2, W1, W0]; after_results
theorem W9_arg3 (c : Dev nD) : W9 m ρ c (Proc.devRef .tc main_arg3) = gateVec m c := by
  dsimp only [W9, W8, W7, W6, W5, W4, W3, W2, W1, W0]; after_results
theorem W9_arg4 (c : Dev nD) : W9 m ρ c (Proc.devRef .tc main_arg4) = w3 m c := by
  dsimp only [W9, W8, W7, W6, W5, W4, W3, W2, W1, W0]; after_results
theorem W9_arg5 (c : Dev nD) : W9 m ρ c (Proc.devRef .tc main_arg5) = b3 m c := by
  dsimp only [W9, W8, W7, W6, W5, W4, W3, W2, W1, W0]; after_results
theorem W9_arg6 (c : Dev nD) : W9 m ρ c (Proc.devRef .tc main_arg6) = src1 m c := by
  dsimp only [W9, W8, W7, W6, W5, W4, W3, W2, W1, W0]; after_results
theorem W9_arg7 (c : Dev nD) : W9 m ρ c (Proc.devRef .tc main_arg7) = dst1 m c := by
  dsimp only [W9, W8, W7, W6, W5, W4, W3, W2, W1, W0]; after_results
theorem W9_arg8 (c : Dev nD) : W9 m ρ c (Proc.devRef .tc main_arg8) = ew1 m c := by
  dsimp only [W9, W8, W7, W6, W5, W4, W3, W2, W1, W0]; after_results
theorem W9_arg9 (c : Dev nD) : W9 m ρ c (Proc.devRef .tc main_arg9) = src2 m c := by
  dsimp only [W9, W8, W7, W6, W5, W4, W3, W2, W1, W0]; after_results
theorem W9_arg10 (c : Dev nD) : W9 m ρ c (Proc.devRef .tc main_arg10) = dst2 m c := by
  dsimp only [W9, W8, W7, W6, W5, W4, W3, W2, W1, W0]; after_results
theorem W9_arg11 (c : Dev nD) : W9 m ρ c (Proc.devRef .tc main_arg11) = ew2 m c := by
  dsimp only [W9, W8, W7, W6, W5, W4, W3, W2, W1, W0]; after_results

end Cert.KernelIdeal.KernelValue

end
-- ==== Proof.KernelResult.lean ====
/-
  The kernel program's result buffer after its run, as one function of the twelve argument arrays.

  From the first region's entry on: the first region leaves the first layer of its entry arrays; the host stretch after it
  is the first graph's gather-multiply-scatter and lays the gate out as a row; the gate region leaves the gate layer; the
  next stretch is the second graph's gather-multiply-scatter and lays the last bias out as a row; the last region leaves
  the last layer, which is @main's result. Every other buffer is carried through unchanged.
-/
import proofs.«107002_j41970420418155_1_alg».proof.Proof.KernelValue

set_option maxRecDepth 16384

noncomputable section

namespace Cert.KernelIdeal.KernelResult

open Idealize.ShloMosaic Idealize.ShloMosaic.TcCoe Idealize.ShloMosaic.ValueIdx Idealize.SL.Sem Idealize.ShloMosaic.StableHlo
open Cert.KernelIdeal Cert.KernelIdeal.Gen Cert.Layers Cert.KernelIdeal.HostFns Cert.KernelIdeal.KernelValue

/-- The whole network over the extended reals: the three layers around the two graph convolutions. -/
def value (x : FVec Ideal S100000x128 .f32) (wa : FVec Ideal S128x64 .f32) (ba k : FVec Ideal S64 .f32)
    (wc : FVec Ideal S64x2 .f32) (bc : FVec Ideal S2 .f32) (s1 d1 : Vec Ideal S1600000 .i32) (g1 : FVec Ideal S1600000 .f32)
    (s2 d2 : Vec Ideal S1600000 .i32) (g2 : FVec Ideal S1600000 .f32) : FVec Ideal S100000x2 .f32 :=
  finalize
    (gatherScatter
      (gate (gatherScatter (linear1 x wa (rowH ba) (colOf (deg s1))) s1 d1 g1) (colOf (deg d1)) (rowH k) (colOf (deg s2)))
      s2 d2 g2)
    (colOf (deg d2)) wc (rowC bc)

/-! ## The two host stretches between the regions, from any contents -/

set_option maxHeartbeats 4000000 in
theorem conv1 (V : Valuation τ sig (Elt Ideal)) (h : FVec Ideal S100000x64 .f32) (s d : Vec Ideal S1600000 .i32)
    (w : FVec Ideal S1600000 .f32) (hh : V (Proc.devRef .tc main_v23) = h) (hs : V (Proc.devRef .tc main_arg6) = s)
    (hd : V (Proc.devRef .tc main_arg7) = d) (hw : V (Proc.devRef .tc main_arg8) = w) :
    StableHlo.after (hostOps1 (F := Ideal)) V (Proc.devRef .tc main_v36) = gatherScatter h s d w := by
  after_results
  rw [hh, hs, hd, hw]
  rfl

theorem row1 (V : Valuation τ sig (Elt Ideal)) (k : FVec Ideal S64 .f32) (hk : V (Proc.devRef .tc main_arg3) = k) :
    StableHlo.after (hostOps1 (F := Ideal)) V (Proc.devRef .tc main_v37) = shapeCast S1x64 k shapeCasts_S64_S1x64 := by
  after_results
  rw [hk]
  rfl

theorem keep1 (V : Valuation τ sig (Elt Ideal)) :
    StableHlo.after (hostOps1 (F := Ideal)) V (Proc.devRef .tc main_v10) = V (Proc.devRef .tc main_v10)
    ∧ StableHlo.after (hostOps1 (F := Ideal)) V (Proc.devRef .tc main_v20) = V (Proc.devRef .tc main_v20)
    ∧ StableHlo.after (hostOps1 (F := Ideal)) V (Proc.devRef .tc main_v21) = V (Proc.devRef .tc main_v21)
    ∧ StableHlo.after (hostOps1 (F := Ideal)) V (Proc.devRef .tc main_arg4) = V (Proc.devRef .tc main_arg4)
    ∧ StableHlo.after (hostOps1 (F := Ideal)) V (Proc.devRef .tc main_arg5) = V (Proc.devRef .tc main_arg5)
    ∧ StableHlo.after (hostOps1 (F := Ideal)) V (Proc.devRef .tc main_arg9) = V (Proc.devRef .tc main_arg9)
    ∧ StableHlo.after (hostOps1 (F := Ideal)) V (Proc.devRef .tc main_arg10) = V (Proc.devRef .tc main_arg10)
    ∧ StableHlo.after (hostOps1 (F := Ideal)) V (Proc.devRef .tc main_arg11) = V (Proc.devRef .tc main_arg11) := by
  refine ⟨?_, ?_, ?_, ?_, ?_, ?_, ?_, ?_⟩ <;> after_results

set_option maxHeartbeats 4000000 in
theorem conv2 (V : Valuation τ sig (Elt Ideal)) (h : FVec Ideal S100000x64 .f32) (s d : Vec Ideal S1600000 .i32)
    (w : FVec Ideal S1600000 .f32) (hh : V (Proc.devRef .tc main_v38) = h) (hs : V (Proc.devRef .tc main_arg9) = s)
    (hd : V (Proc.devRef .tc main_arg10) = d) (hw : V (Proc.devRef .tc main_arg11) = w) :
    StableHlo.after (hostOps2 (F := Ideal)) V (Proc.devRef .tc main_v51) = gatherScatter h s d w := by
  after_results
  rw [hh, hs, hd, hw]
  rfl

theorem row2 (V : Valuation τ sig (Elt Ideal)) (b : FVec Ideal S2 .f32) (hb : V (Proc.devRef .tc main_arg5) = b) :
    StableHlo.after (hostOps2 (F := Ideal)) V (Proc.devRef .tc main_v52) = shapeCast S1x2 b shapeCasts_S2_S1x2 := by
  after_results
  rw [hb]
  rfl

theorem keep2 (V : Valuation τ sig (Elt Ideal)) :
    StableHlo.after (hostOps2 (F := Ideal)) V (Proc.devRef .tc main_v21) = V (Proc.devRef .tc main_v21)
    ∧ StableHlo.after (hostOps2 (F := Ideal)) V (Proc.devRef .tc main_arg4) = V (Proc.devRef .tc main_arg4) := by
  refine ⟨?_, ?_⟩ <;> after_results

variable (m : (ℓ : Loc nD τ sig) → Buf (Elt Ideal) ℓ) (ρ : Dev nD → PrngReg)

/-! ## The first region's exit and the first convolution -/

theorem W10_layer1 (c : Dev nD) : W10 m ρ c (Proc.devRef .tc main_v23)
    = linear1 (inFeat m c) (w1 m c) (rowH (b1 m c)) (colOf (deg (src1 m c))) := by
  refine (W10_arr m ρ c 4).trans ((LinearValue.final (V9 m ρ) c).trans ?_)
  show linear1 (W9 m ρ c (Proc.devRef .tc main_arg0)) (W9 m ρ c (Proc.devRef .tc main_arg1))
      (W9 m ρ c (Proc.devRef .tc main_v22)) (W9 m ρ c (Proc.devRef .tc main_v9)) = _
  rw [W9_arg0, W9_arg1, W9_bias, W9_degOut1]

/-- A buffer that is no window array of the first region holds after it what it held at its entry. -/
theorem W10_carry (c : Dev nD) (b : Ref sig .tc) (hb : ∀ w, Pipeline.arrRef spec0 w ≠ b)
    (x : Buf (Elt Ideal) ((c : Thread nD τ).loc b)) (hx : W9 m ρ c (Proc.devRef .tc b) = x) :
    W10 m ρ c (Proc.devRef .tc b) = x := (W10_of_ne m ρ c b hb).trans hx

theorem W11_agg1 (c : Dev nD) : W11 m ρ c (Proc.devRef .tc main_v36)
    = gatherScatter (linear1 (inFeat m c) (w1 m c) (rowH (b1 m c)) (colOf (deg (src1 m c)))) (src1 m c) (dst1 m c) (ew1 m c) :=
  conv1 (W10 m ρ c) _ _ _ _ (W10_layer1 m ρ c)
    (W10_carry m ρ c main_arg6 (by decide) _ (W9_arg6 m ρ c))
    (W10_carry m ρ c main_arg7 (by decide) _ (W9_arg7 m ρ c))
    (W10_carry m ρ c main_arg8 (by decide) _ (W9_arg8 m ρ c))

theorem W11_gateRow (c : Dev nD) : W11 m ρ c (Proc.devRef .tc main_v37) = rowH (gateVec m c) :=
  (row1 (W10 m ρ c) _ (W10_carry m ρ c main_arg3 (by decide) _ (W9_arg3 m ρ c))).trans (rowH_eq _)

theorem W11_degIn1 (c : Dev nD) : W11 m ρ c (Proc.devRef .tc main_v10) = colOf (deg (dst1 m c)) :=
  (keep1 (W10 m ρ c)).1.trans (W10_carry m ρ c main_v10 (by decide) _ (W9_degIn1 m ρ c))
theorem W11_degOut2 (c : Dev nD) : W11 m ρ c (Proc.devRef .tc main_v20) = colOf (deg (src2 m c)) :=
  (keep1 (W10 m ρ c)).2.1.trans (W10_carry m ρ c main_v20 (by decide) _ (W9_degOut2 m ρ c))
theorem W11_degIn2 (c : Dev nD) : W11 m ρ c (Proc.devRef .tc main_v21) = colOf (deg (dst2 m c)) :=
  (keep1 (W10 m ρ c)).2.2.1.trans (W10_carry m ρ c main_v21 (by decide) _ (W9_degIn2 m ρ c))
theorem W11_arg4 (c : Dev nD) : W11 m ρ c (Proc.devRef .tc main_arg4) = w3 m c :=
  (keep1 (W10 m ρ c)).2.2.2.1.trans (W10_carry m ρ c main_arg4 (by decide) _ (W9_arg4 m ρ c))
theorem W11_arg5 (c : Dev nD) : W11 m ρ c (Proc.devRef .tc main_arg5) = b3 m c :=
  (keep1 (W10 m ρ c)).2.2.2.2.1.trans (W10_carry m ρ c main_arg5 (by decide) _ (W9_arg5 m ρ c))
theorem W11_arg9 (c : Dev nD) : W11 m ρ c (Proc.devRef .tc main_arg9) = src2 m c :=
  (keep1 (W10 m ρ c)).2.2.2.2.2.1.trans (W10_carry m ρ c main_arg9 (by decide) _ (W9_arg9 m ρ c))
theorem W11_arg10 (c : Dev nD) : W11 m ρ c (Proc.devRef .tc main_arg10) = dst2 m c :=
  (keep1 (W10 m ρ c)).2.2.2.2.2.2.1.trans (W10_carry m ρ c main_arg10 (by decide) _ (W9_arg10 m ρ c))
theorem W11_arg11 (c : Dev nD) : W11 m ρ c (Proc.devRef .tc main_arg11) = ew2 m c :=
  (keep1 (W10 m ρ c)).2.2.2.2.2.2.2.trans (W10_carry m ρ c main_arg11 (by decide) _ (W9_arg11 m ρ c))

/-! ## The gate region's exit and the second convolution -/

theorem W12_layer2 (c : Dev nD) : W12 m ρ c (Proc.devRef .tc main_v38)
    = gate (gatherScatter (linear1 (inFeat m c) (w1 m c) (rowH (b1 m c)) (colOf (deg (src1 m c)))) (src1 m c) (dst1 m c) (ew1 m c))
        (colOf (deg (dst1 m c))) (rowH (gateVec m c)) (colOf (deg (src2 m c))) := by
  refine (W12_arr m ρ c 4).trans ((GateValue.final (V11 m ρ) c).trans ?_)
  show gate (W11 m ρ c (Proc.devRef .tc main_v36)) (W11 m ρ c (Proc.devRef .tc main_v10))
      (W11 m ρ c (Proc.devRef .tc main_v37)) (W11 m ρ c (Proc.devRef .tc main_v20)) = _
  rw [W11_agg1, W11_degIn1, W11_gateRow, W11_degOut2]

/-- A buffer that is no window array of the gate region holds after it what it held at its entry. -/
theorem W12_carry (c : Dev nD) (b : Ref sig .tc) (hb : ∀ w, Pipeline.arrRef spec1 w ≠ b)
    (x : Buf (Elt Ideal) ((c : Thread nD τ).loc b)) (hx : W11 m ρ c (Proc.devRef .tc b) = x) :
    W12 m ρ c (Proc.devRef .tc b) = x := (W12_of_ne m ρ c b hb).trans hx

theorem W13_agg2 (c : Dev nD) : W13 m ρ c (Proc.devRef .tc main_v51)
    = gatherScatter (gate (gatherScatter (linear1 (inFeat m c) (w1 m c) (rowH (b1 m c)) (colOf (deg (src1 m c)))) (src1 m c) (dst1 m c) (ew1 m c))
        (colOf (deg (dst1 m c))) (rowH (gateVec m c)) (colOf (deg (src2 m c)))) (src2 m c) (dst2 m c) (ew2 m c) :=
  conv2 (W12 m ρ c) _ _ _ _ (W12_layer2 m ρ c)
    (W12_carry m ρ c main_arg9 (by decide) _ (W11_arg9 m ρ c))
    (W12_carry m ρ c main_arg10 (by decide) _ (W11_arg10 m ρ c))
    (W12_carry m ρ c main_arg11 (by decide) _ (W11_arg11 m ρ c))

theorem W13_biasRow (c : Dev nD) : W13 m ρ c (Proc.devRef .tc main_v52) = rowC (b3 m c) :=
  (row2 (W12 m ρ c) _ (W12_carry m ρ c main_arg5 (by decide) _ (W11_arg5 m ρ c))).trans (rowC_eq _)
theorem W13_degIn2 (c : Dev nD) : W13 m ρ c (Proc.devRef .tc main_v21) = colOf (deg (dst2 m c)) :=
  (keep2 (W12 m ρ c)).1.trans (W12_carry m ρ c main_v21 (by decide) _ (W11_degIn2 m ρ c))
theorem W13_arg4 (c : Dev nD) : W13 m ρ c (Proc.devRef .tc main_arg4) = w3 m c :=
  (keep2 (W12 m ρ c)).2.trans (W12_carry m ρ c main_arg4 (by decide) _ (W11_arg4 m ρ c))

/-! ## The last region's exit: @main's result -/

/-- THE RESULT BUFFER after the kernel program's run is the network's value at the argument arrays. -/
theorem result (c : Dev nD) : W14 m ρ c (Proc.devRef .tc main_v53)
    = value (inFeat m c) (w1 m c) (b1 m c) (gateVec m c) (w3 m c) (b3 m c) (src1 m c) (dst1 m c) (ew1 m c)
        (src2 m c) (dst2 m c) (ew2 m c) := by
  refine (W14_arr m ρ c 4).trans ((FinalValue.final (V13 m ρ) c).trans ?_)
  show finalize (W13 m ρ c (Proc.devRef .tc main_v51)) (W13 m ρ c (Proc.devRef .tc main_v21))
      (W13 m ρ c (Proc.devRef .tc main_arg4)) (W13 m ρ c (Proc.devRef .tc main_v52)) = _
  rw [W13_agg2, W13_degIn2, W13_arg4, W13_biasRow]
  rfl

end Cert.KernelIdeal.KernelResult

end
-- ==== Proof.RefLayers.lean ====
/-
  The reference program, stage by stage, is the three node-wise layers composed with two functions of whole arrays
  that are left as they stand: the degree count and the gather-multiply-scatter of one graph convolution.

  h = x · W1 + b1; one convolution on the first graph: h scaled by the inverse square root of the out-degree, rows
  gathered at the source of every edge, times the edge weight, added up at the destination, scaled by the inverse
  square root of the in-degree; times the per-column gate; the same convolution on the second graph; clamped below at
  zero; · W3 + b3.
-/
import proofs.«107002_j41970420418155_1_alg».proof.Proof.Gen.ReferenceIdeal.Read
import proofs.«107002_j41970420418155_1_alg».proof.Proof.Layers
import Idealize.ShloMosaic.Lib.ValueIdx
import Idealize.ShloMosaic.PureOps.Ideal.Laws

noncomputable section

namespace Cert.ReferenceIdeal.RefLayers

open Idealize.ShloMosaic Idealize.ShloMosaic.ValueIdx Cert.ReferenceIdeal Cert.ReferenceIdeal.Read Cert.Layers
open Cert.ReferenceIdeal.Gen Idealize.ShloMosaic.TcCoe Idealize.SL.Sem Idealize.ShloMosaic.StableHlo

/-- out- or in-degree of every node, clamped below at 1: the count of the edges whose endpoint is the node -/
def deg (idx : (⟨S1600000, .i32⟩ : BufTy).Contents (Elt Ideal)) : (⟨S100000, .f32⟩ : BufTy).Contents (Elt Ideal) :=
  maximumf (F := Ideal) (s := S100000) (φ := .f32) (val_main_call0_v1 (F := Ideal))
    (Host.scatterAdd (F := Ideal) (φ := .f32) scatter_S100000_S1600000x1_S1600000_n_0_0_1 (val_main_v5 (F := Ideal)) (val_main_v6 (F := Ideal) idx)
      (val_main_v4 (F := Ideal)))

/-- one graph convolution without its two degree scalings: rows of h gathered at src (a negative index counted from the end), times the edge weight, added up at dst -/
def gatherScatter (h : (⟨S100000x64, .f32⟩ : BufTy).Contents (Elt Ideal)) (src dst : (⟨S1600000, .i32⟩ : BufTy).Contents (Elt Ideal)) (w : (⟨S1600000, .f32⟩ : BufTy).Contents (Elt Ideal)) : (⟨S100000x64, .f32⟩ : BufTy).Contents (Elt Ideal) :=
  Host.scatterAdd (F := Ideal) (φ := .f32) scatter_S100000x64_S1600000x1_S1600000x64_1_0_0_1 (val_main_v27 (F := Ideal)) (val_main_v28 (F := Ideal) dst)
    (mulf (F := Ideal) (s := S1600000x64) (φ := .f32) (Host.gather gather_S100000x64_S1600000x1_S1600000x64_1_0_n_n_0_1_164 h (val_main_v22 (F := Ideal) src))
      (val_main_v25 (F := Ideal) w))

/-! ## The four degree vectors are one function of the endpoint vector -/

theorem degOut1_eq (x6 : (⟨S1600000, .i32⟩ : BufTy).Contents (Elt Ideal)) : val_main_v8 (F := Ideal) x6 = deg x6 := rfl
theorem degIn1_eq (x7 : (⟨S1600000, .i32⟩ : BufTy).Contents (Elt Ideal)) : val_main_v12 (F := Ideal) x7 = deg x7 := rfl
theorem degOut2_eq (x9 : (⟨S1600000, .i32⟩ : BufTy).Contents (Elt Ideal)) : val_main_v41 (F := Ideal) x9 = deg x9 := rfl
theorem degIn2_eq (x10 : (⟨S1600000, .i32⟩ : BufTy).Contents (Elt Ideal)) : val_main_v45 (F := Ideal) x10 = deg x10 := rfl

/-! ## The two aggregations are one function of the scaled rows, the edge lists and the edge weights -/

theorem agg1_eq (x0 : (⟨S100000x128, .f32⟩ : BufTy).Contents (Elt Ideal)) (x1 : (⟨S128x64, .f32⟩ : BufTy).Contents (Elt Ideal)) (x2 : (⟨S64, .f32⟩ : BufTy).Contents (Elt Ideal)) (x6 : (⟨S1600000, .i32⟩ : BufTy).Contents (Elt Ideal)) (x7 : (⟨S1600000, .i32⟩ : BufTy).Contents (Elt Ideal)) (x8 : (⟨S1600000, .f32⟩ : BufTy).Contents (Elt Ideal)) :
    val_main_v29 (F := Ideal) x0 x1 x2 x6 x7 x8 = gatherScatter (val_main_v16 (F := Ideal) x0 x1 x2 x6) x6 x7 x8 := rfl

theorem agg2_eq (x0 : (⟨S100000x128, .f32⟩ : BufTy).Contents (Elt Ideal)) (x1 : (⟨S128x64, .f32⟩ : BufTy).Contents (Elt Ideal)) (x2 : (⟨S64, .f32⟩ : BufTy).Contents (Elt Ideal)) (x3 : (⟨S64, .f32⟩ : BufTy).Contents (Elt Ideal)) (x6 : (⟨S1600000, .i32⟩ : BufTy).Contents (Elt Ideal)) (x7 : (⟨S1600000, .i32⟩ : BufTy).Contents (Elt Ideal)) (x8 : (⟨S1600000, .f32⟩ : BufTy).Contents (Elt Ideal)) (x9 : (⟨S1600000, .i32⟩ : BufTy).Contents (Elt Ideal)) (x10 : (⟨S1600000, .i32⟩ : BufTy).Contents (Elt Ideal)) (x11 : (⟨S1600000, .f32⟩ : BufTy).Contents (Elt Ideal)) :
    val_main_v62 (F := Ideal) x0 x1 x2 x3 x6 x7 x8 x9 x10 x11
      = gatherScatter (val_main_v49 (F := Ideal) x0 x1 x2 x3 x6 x7 x8 x9) x9 x10 x11 := rfl

/-! ## Index arithmetic: the coordinates the layout stages read -/

private theorem lidx0 (p : Fin 100000) (q : Fin 64) (k : Fin 128) : lidx_main_v0 (ix2 p q) k = ix2 p k :=
  funext fun a => Fin.ext (by match a with | ⟨0, _⟩ => rfl | ⟨1, _⟩ => rfl)
private theorem ridx0 (p : Fin 100000) (q : Fin 64) (k : Fin 128) : ridx_main_v0 (ix2 p q) k = ix2 k q :=
  funext fun a => Fin.ext (by match a with | ⟨0, _⟩ => rfl | ⟨1, _⟩ => rfl)
private theorem idxRow (p : Fin 100000) (q : Fin 64) : idx_main_v1 (idx_main_v2 (ix2 p q)) = ix1 q :=
  funext fun a => Fin.ext (by match a with | ⟨0, _⟩ => rfl)
private theorem idxCol (p : Fin 100000) (q : Fin 64) : idx_main_v14 (idx_main_v15 (ix2 p q)) = ix1 p :=
  funext fun a => Fin.ext (by match a with | ⟨0, _⟩ => rfl)
private theorem lidx68 (p : Fin 100000) (q : Fin 2) (k : Fin 64) : lidx_main_v68 (ix2 p q) k = ix2 p k :=
  funext fun a => Fin.ext (by match a with | ⟨0, _⟩ => rfl | ⟨1, _⟩ => rfl)
private theorem ridx68 (p : Fin 100000) (q : Fin 2) (k : Fin 64) : ridx_main_v68 (ix2 p q) k = ix2 k q :=
  funext fun a => Fin.ext (by match a with | ⟨0, _⟩ => rfl | ⟨1, _⟩ => rfl)
private theorem idxRowC (p : Fin 100000) (q : Fin 2) : idx_main_v69 (idx_main_v70 (ix2 p q)) = ix1 q :=
  funext fun a => Fin.ext (by match a with | ⟨0, _⟩ => rfl)

/-! ## The three layers -/

/-- Stages 0 to 16: (x · W1 + b1) scaled by the inverse square root of the first graph's out-degree. -/
theorem layer1_eq (x0 : (⟨S100000x128, .f32⟩ : BufTy).Contents (Elt Ideal)) (x1 : (⟨S128x64, .f32⟩ : BufTy).Contents (Elt Ideal)) (x2 : (⟨S64, .f32⟩ : BufTy).Contents (Elt Ideal)) (x6 : (⟨S1600000, .i32⟩ : BufTy).Contents (Elt Ideal)) :
    val_main_v16 (F := Ideal) x0 x1 x2 x6 = linear1 x0 x1 (rowH x2) (colOf (deg x6)) := by
  funext i
  obtain ⟨p, q, rfl⟩ : ∃ (p : Fin 100000) (q : Fin 64), i = ix2 p q := ⟨i 0, i 1, eq_ix2 i⟩
  rw [val_main_v16_apply, val_main_v3_apply, val_main_v0_apply, val_main_v2_apply, val_main_v1_apply,
    val_main_v15_apply, val_main_v14_apply, val_main_v13_apply, degOut1_eq]
  simp only [lidx0, ridx0, idxRow, idxCol, Ideal.mulf_def, Ideal.addf_def, Ideal.hostUnary_rsqrt_def]
  rfl

/-- Stages 30 to 49: the aggregated row scaled by the inverse square roots of the first graph's in-degree and the
    second graph's out-degree, times the gate. -/
theorem layer2_eq (x0 : (⟨S100000x128, .f32⟩ : BufTy).Contents (Elt Ideal)) (x1 : (⟨S128x64, .f32⟩ : BufTy).Contents (Elt Ideal)) (x2 : (⟨S64, .f32⟩ : BufTy).Contents (Elt Ideal)) (x3 : (⟨S64, .f32⟩ : BufTy).Contents (Elt Ideal)) (x6 : (⟨S1600000, .i32⟩ : BufTy).Contents (Elt Ideal)) (x7 : (⟨S1600000, .i32⟩ : BufTy).Contents (Elt Ideal)) (x8 : (⟨S1600000, .f32⟩ : BufTy).Contents (Elt Ideal)) (x9 : (⟨S1600000, .i32⟩ : BufTy).Contents (Elt Ideal)) :
    val_main_v49 (F := Ideal) x0 x1 x2 x3 x6 x7 x8 x9
      = gate (val_main_v29 (F := Ideal) x0 x1 x2 x6 x7 x8) (colOf (deg x7)) (rowH x3) (colOf (deg x9)) := by
  funext i
  obtain ⟨p, q, rfl⟩ : ∃ (p : Fin 100000) (q : Fin 64), i = ix2 p q := ⟨i 0, i 1, eq_ix2 i⟩
  rw [val_main_v49_apply, val_main_v36_apply, val_main_v35_apply, val_main_v34_apply, val_main_v33_apply,
    val_main_v32_apply, val_main_v31_apply, val_main_v30_apply, degIn1_eq,
    val_main_v48_apply, val_main_v47_apply, val_main_v46_apply, degOut2_eq]
  have e1 : idx_main_v34 (idx_main_v35 (ix2 p q)) = ix1 q :=
    funext fun a => Fin.ext (by match a with | ⟨0, _⟩ => rfl)
  have e2 : idx_main_v31 (idx_main_v32 (ix2 p q)) = ix1 p :=
    funext fun a => Fin.ext (by match a with | ⟨0, _⟩ => rfl)
  have e3 : idx_main_v47 (idx_main_v48 (ix2 p q)) = ix1 p :=
    funext fun a => Fin.ext (by match a with | ⟨0, _⟩ => rfl)
  rw [e1, e2, e3]
  simp only [Ideal.mulf_def, Ideal.hostUnary_rsqrt_def]
  show x3 (ix1 q) * (val_main_v29 (F := Ideal) x0 x1 x2 x6 x7 x8 (ix2 p q) * Ideal.rsqrt (deg x7 (ix1 p)))
      * Ideal.rsqrt (deg x9 (ix1 p))
    = val_main_v29 (F := Ideal) x0 x1 x2 x6 x7 x8 (ix2 p q) * (Ideal.rsqrt (deg x7 (ix1 p)) * Ideal.rsqrt (deg x9 (ix1 p)))
      * x3 (ix1 q)
  rw [mul_comm (x3 (ix1 q)), mul_assoc, mul_comm (x3 (ix1 q)), ← mul_assoc, mul_assoc (val_main_v29 (F := Ideal) x0 x1 x2 x6 x7 x8 (ix2 p q))]

/-- Stages 63 to 71: the aggregated row scaled by the inverse square root of the second graph's in-degree, clamped
    below at zero, times W3, plus b3. -/
theorem layer3_eq (x0 : (⟨S100000x128, .f32⟩ : BufTy).Contents (Elt Ideal)) (x1 : (⟨S128x64, .f32⟩ : BufTy).Contents (Elt Ideal)) (x2 : (⟨S64, .f32⟩ : BufTy).Contents (Elt Ideal)) (x3 : (⟨S64, .f32⟩ : BufTy).Contents (Elt Ideal)) (x4 : (⟨S64x2, .f32⟩ : BufTy).Contents (Elt Ideal)) (x5 : (⟨S2, .f32⟩ : BufTy).Contents (Elt Ideal)) (x6 : (⟨S1600000, .i32⟩ : BufTy).Contents (Elt Ideal)) (x7 : (⟨S1600000, .i32⟩ : BufTy).Contents (Elt Ideal)) (x8 : (⟨S1600000, .f32⟩ : BufTy).Contents (Elt Ideal)) (x9 : (⟨S1600000, .i32⟩ : BufTy).Contents (Elt Ideal)) (x10 : (⟨S1600000, .i32⟩ : BufTy).Contents (Elt Ideal)) (x11 : (⟨S1600000, .f32⟩ : BufTy).Contents (Elt Ideal)) :
    val_main_v71 (F := Ideal) x0 x1 x2 x3 x4 x5 x6 x7 x8 x9 x10 x11
      = finalize (val_main_v62 (F := Ideal) x0 x1 x2 x3 x6 x7 x8 x9 x10 x11) (colOf (deg x10)) x4 (rowC x5) := by
  funext i
  obtain ⟨p, q, rfl⟩ : ∃ (p : Fin 100000) (q : Fin 2), i = ix2 p q := ⟨i 0, i 1, eq_ix2 i⟩
  rw [val_main_v71_apply, val_main_v68_apply, val_main_v70_apply, val_main_v69_apply, idxRowC, Ideal.addf_def]
  show _ = finalizeAt (val_main_v62 (F := Ideal) x0 x1 x2 x3 x6 x7 x8 x9 x10 x11) (colOf (deg x10)) x4 (rowC x5) p q
  unfold finalizeAt
  refine congrArg (· + x5 (ix1 q)) (Finset.sum_congr rfl fun k _ => ?_)
  have e4 : idx_main_v64 (idx_main_v65 (ix2 p k)) = ix1 p :=
    funext fun a => Fin.ext (by match a with | ⟨0, _⟩ => rfl)
  rw [lidx68, ridx68, val_main_v67_apply, val_main_v66_apply, val_main_v65_apply, val_main_v64_apply,
    val_main_v63_apply, degIn2_eq, val_main_call4_v0_apply, val_main_call4_cst_apply, e4,
    Ideal.maximumf_def, Ideal.mulf_def, Ideal.hostUnary_rsqrt_def, Ideal.ofBits_def]
  rfl

/-- the whole reference as the three layers around the two convolutions -/
theorem result_eq (x0 : (⟨S100000x128, .f32⟩ : BufTy).Contents (Elt Ideal)) (x1 : (⟨S128x64, .f32⟩ : BufTy).Contents (Elt Ideal)) (x2 : (⟨S64, .f32⟩ : BufTy).Contents (Elt Ideal)) (x3 : (⟨S64, .f32⟩ : BufTy).Contents (Elt Ideal)) (x4 : (⟨S64x2, .f32⟩ : BufTy).Contents (Elt Ideal)) (x5 : (⟨S2, .f32⟩ : BufTy).Contents (Elt Ideal)) (x6 : (⟨S1600000, .i32⟩ : BufTy).Contents (Elt Ideal)) (x7 : (⟨S1600000, .i32⟩ : BufTy).Contents (Elt Ideal)) (x8 : (⟨S1600000, .f32⟩ : BufTy).Contents (Elt Ideal)) (x9 : (⟨S1600000, .i32⟩ : BufTy).Contents (Elt Ideal)) (x10 : (⟨S1600000, .i32⟩ : BufTy).Contents (Elt Ideal)) (x11 : (⟨S1600000, .f32⟩ : BufTy).Contents (Elt Ideal)) :
    val_main_v71 (F := Ideal) x0 x1 x2 x3 x4 x5 x6 x7 x8 x9 x10 x11
    = finalize (gatherScatter (gate (gatherScatter (linear1 x0 x1 (rowH x2) (colOf (deg x6))) x6 x7 x8) (colOf (deg x7)) (rowH x3) (colOf (deg x9))) x9 x10 x11) (colOf (deg x10)) x4 (rowC x5) := by
  rw [layer3_eq, agg2_eq, layer2_eq, agg1_eq, layer1_eq]

end Cert.ReferenceIdeal.RefLayers

end
-- ==== Proof.Bridge.lean ====
/-
  The degree count and the gather-multiply-scatter of one graph convolution are the same functions whether they are
  written over the reference program's shapes and dimension records or over the kernel program's: both are the same
  tree of operations (constants, broadcasts, a comparison with zero and an addition of the node count for a negative
  index, a gather, a product, a scatter-add, a maximum), the shapes are the same literals, and the dimension records have
  the same fields.
-/
import proofs.«107002_j41970420418155_1_alg».proof.Proof.RefLayers
import proofs.«107002_j41970420418155_1_alg».proof.Proof.HostFns

noncomputable section

namespace Cert.Bridge

open Idealize.ShloMosaic Cert.ReferenceIdeal.Read

/-! ## The dimension records of the two programs have the same fields -/

theorem scatter1_eq :
    Cert.ReferenceIdeal.scatter_S100000_S1600000x1_S1600000_n_0_0_1
      = Cert.KernelIdeal.scatter_S100000_S1600000x1_S1600000_n_0_0_1 := rfl

theorem scatter2_eq :
    Cert.ReferenceIdeal.scatter_S100000x64_S1600000x1_S1600000x64_1_0_0_1
      = Cert.KernelIdeal.scatter_S100000x64_S1600000x1_S1600000x64_1_0_0_1 := rfl

theorem gather_eq :
    Cert.ReferenceIdeal.gather_S100000x64_S1600000x1_S1600000x64_1_0_n_n_0_1_164
      = Cert.KernelIdeal.gather_S100000x64_S1600000x1_S1600000x64_1_0_n_n_0_1_164 := rfl

/-! ## The two shared functions -/

/-- The clamped degree count is one function of the endpoint vector. -/
theorem deg_eq (x : Vec Ideal Cert.KernelIdeal.S1600000 .i32) :
    Cert.ReferenceIdeal.RefLayers.deg x = Cert.KernelIdeal.HostFns.deg x := by
  unfold Cert.ReferenceIdeal.RefLayers.deg Cert.KernelIdeal.HostFns.deg Cert.KernelIdeal.HostFns.clampBelow
    Cert.KernelIdeal.HostFns.count Cert.KernelIdeal.HostFns.one0 Cert.KernelIdeal.HostFns.ones
  unfold val_main_call0_v1 val_main_call0_v0 val_main_cst_1 val_main_v5 val_main_cst_0 val_main_v6 val_main_v4 val_main_cst
  rw [scatter1_eq]

/-- The gather-multiply-scatter is one function of the rows, the edge lists and the edge weights. -/
theorem gatherScatter_eq (h : FVec Ideal Cert.KernelIdeal.S100000x64 .f32) (src dst : Vec Ideal Cert.KernelIdeal.S1600000 .i32)
    (w : FVec Ideal Cert.KernelIdeal.S1600000 .f32) :
    Cert.ReferenceIdeal.RefLayers.gatherScatter h src dst w = Cert.KernelIdeal.HostFns.gatherScatter h src dst w := by
  unfold Cert.ReferenceIdeal.RefLayers.gatherScatter Cert.KernelIdeal.HostFns.gatherScatter
  unfold val_main_v27 val_main_cst_5 val_main_v28 val_main_v22 val_main_v21 val_main_v18 val_main_v17 val_main_c
    val_main_v20 val_main_v19 val_main_c_4 val_main_v25 val_main_v24
  rw [scatter2_eq, gather_eq]

end Cert.Bridge

end
-- ==== Proof.lean ====
/-
  The kernel, three blocked regions around two graph convolutions done by host gathers and scatter-adds, computes the
  same function of its twelve arguments as the reference, over the extended reals.

  Both programs are: first layer (x · W1 + b1, each row scaled by the inverse square root of its out-degree); the first
  graph's gather, multiply by the edge weights and scatter-add; a per-row scaling by the inverse square roots of the
  in-degree of the first graph and the out-degree of the second, and a per-column gate; the second graph's gather,
  multiply and scatter-add; the scaling by the inverse square root of the in-degree, a clamp below at zero, · W3 + b3.
  The kernel does the three node-wise layers in its regions, block of 5000 rows by block, and multiplies the two inverse
  square roots together before it scales; the reference does them as whole-array host operations, one factor at a time.
  The two orders of the factors agree because multiplication of extended reals is commutative and associative; the
  roundings to bf16 on the way into the kernel's two products are the identity there; no finiteness is used. The degree
  count and the gather-multiply-scatter are the same host functions in both programs and are never opened.

  The kernel's run with its result buffer named is `KernelRun.lean`; what that buffer holds, `KernelResult.lean` (over
  `KernelValue.lean` and the three region modules); the reference's run and its stages are the generated modules, read as
  the same three layers in `RefLayers.lean`; `Bridge.lean` identifies the two programs' host functions.
-/
import proofs.«107002_j41970420418155_1_alg».proof.Defs
import proofs.«107002_j41970420418155_1_alg».proof.Proof.Gen.Kernel
import proofs.«107002_j41970420418155_1_alg».proof.Proof.Gen.Kernel.Skeleton
import proofs.«107002_j41970420418155_1_alg».proof.Proof.Gen.Kernel.Launch
import proofs.«107002_j41970420418155_1_alg».proof.Proof.Gen.Kernel.Points
import proofs.«107002_j41970420418155_1_alg».proof.Proof.Gen.Kernel.Frame
import proofs.«107002_j41970420418155_1_alg».proof.Proof.Gen.KernelIdeal
import proofs.«107002_j41970420418155_1_alg».proof.Proof.Gen.KernelIdeal.Skeleton
import proofs.«107002_j41970420418155_1_alg».proof.Proof.Gen.KernelIdeal.Launch
import proofs.«107002_j41970420418155_1_alg».proof.Proof.Gen.KernelIdeal.Points
import proofs.«107002_j41970420418155_1_alg».proof.Proof.Gen.KernelIdeal.Frame
import proofs.«107002_j41970420418155_1_alg».proof.Proof.Gen.ReferenceIdeal
import proofs.«107002_j41970420418155_1_alg».proof.Proof.Gen.ReferenceIdeal.Run
import proofs.«107002_j41970420418155_1_alg».proof.Proof.Gen.ReferenceIdeal.Read
import proofs.«107002_j41970420418155_1_alg».proof.Proof.Gen.Pre_finite_inputs
import proofs.«107002_j41970420418155_1_alg».proof.Proof.KernelRun
import proofs.«107002_j41970420418155_1_alg».proof.Proof.KernelResult
import proofs.«107002_j41970420418155_1_alg».proof.Proof.RefLayers
import proofs.«107002_j41970420418155_1_alg».proof.Proof.Bridge
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The reference's result term at arguments that agree with the kernel's is the network's value at the kernel's
    arguments: its stages are the three layers around the two convolutions, and its degree count and
    gather-multiply-scatter are the kernel program's. -/
theorem reference_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧       m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧       m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧       m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧       m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧       m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧       m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧       m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧       m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧       m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧       m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧       m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Value.res_main_v71 m' c
      = Cert.KernelIdeal.KernelResult.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
  rw [Cert.ReferenceIdeal.Read.val_main_v71_eq, Cert.ReferenceIdeal.RefLayers.result_eq,
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
  simp only [Cert.Bridge.deg_eq, Cert.Bridge.gatherScatter_eq]
  rfl

theorem algebraic : Cert.algebraic_KernelIdeal_ReferenceIdeal := by
  intro m ρ m' ρ' _ hagree
  refine ⟨fun c => Cert.KernelIdeal.KernelResult.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.KernelResult.result m ρ c), (h c).2⟩)
      (Cert.KernelIdeal.Run.run_main (F := Ideal) m ρ)
  · exact (θ_run Cert.ReferenceIdeal.defs _ _).mono
      (fun r h c => ⟨(h c).1.trans (reference_value m m' c hagree), (h c).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
